-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128000x200 : Shape := ⟨2, ![128000, 200]⟩
abbrev S500x200 : Shape := ⟨2, ![500, 200]⟩
abbrev S288x200 : Shape := ⟨2, ![288, 200]⟩
abbrev S288 : Shape := ⟨1, ![288]⟩
abbrev S200x6144 : Shape := ⟨2, ![200, 6144]⟩
abbrev S200 : Shape := ⟨1, ![200]⟩
abbrev S1 : Shape := ⟨1, ![1]⟩
abbrev S32 : Shape := ⟨1, ![32]⟩
abbrev S128000 : Shape := ⟨1, ![128000]⟩
abbrev S1024 : Shape := ⟨1, ![1024]⟩
abbrev S_ : Shape := ⟨0, ![]⟩

class Facts : Prop where
  bcast_S_S128000x200 : S_.BroadcastsInDim S128000x200 (![] : Fin 0 → Fin S128000x200.rank)
  reducesTo_S128000x200_S_d0_1 : S128000x200.ReducesTo [0, 1] S_
  h_S_ : 0 < S_.numel
  bcast_S_S500x200 : S_.BroadcastsInDim S500x200 (![] : Fin 0 → Fin S500x200.rank)
  reducesTo_S500x200_S_d0_1 : S500x200.ReducesTo [0, 1] S_
  bcast_S_S288x200 : S_.BroadcastsInDim S288x200 (![] : Fin 0 → Fin S288x200.rank)
  reducesTo_S288x200_S_d0_1 : S288x200.ReducesTo [0, 1] S_
  bcast_S_S288 : S_.BroadcastsInDim S288 (![] : Fin 0 → Fin S288.rank)
  reducesTo_S288_S_d0 : S288.ReducesTo [0] S_
  bcast_S_S200x6144 : S_.BroadcastsInDim S200x6144 (![] : Fin 0 → Fin S200x6144.rank)
  reducesTo_S200x6144_S_d0_1 : S200x6144.ReducesTo [0, 1] S_
  bcast_S_S200 : S_.BroadcastsInDim S200 (![] : Fin 0 → Fin S200.rank)
  reducesTo_S200_S_d0 : S200.ReducesTo [0] S_
  bcast_S_S1 : S_.BroadcastsInDim S1 (![] : Fin 0 → Fin S1.rank)
  reducesTo_S1_S_d0 : S1.ReducesTo [0] S_
  bcast_S_S32 : S_.BroadcastsInDim S32 (![] : Fin 0 → Fin S32.rank)
  reducesTo_S32_S_d0 : S32.ReducesTo [0] S_
  bcast_S_S128000 : S_.BroadcastsInDim S128000 (![] : Fin 0 → Fin S128000.rank)
  reducesTo_S128000_S_d0 : S128000.ReducesTo [0] S_

variable [Facts]

def fn_part5 {F : FTy → Type} [FloatOps F] (main_arg18 : FVec F S128000 .f32) (main_v83 : IVec S_ 1) (main_v84 : FVec F S200 .f32) (main_cst_32 : FVec F S_ .f32) : IVec S_ 1 :=
  let main_v85 : FVec F S200 .f32 := broadcastInDim S200 ![] bcast_S_S200 main_cst_32
  let main_v86 : IVec S200 1 := cmpf .olt main_v84 main_v85
  let main_c_33 : IVec S_ 1 := constantI S_ 1 1#1
  let main_v87 : IVec S_ 1 := (fun x v => Host.reduce IntOp.andi x v reducesTo_S200_S_d0 h_S_) main_v86 main_c_33
  let main_v88 : IVec S_ 1 := andi main_v83 main_v87
  let main_v89 : FVec F S128000 .f32 := Host.absf main_arg18
  let main_cst_34 : FVec F S_ .f32 := constant S_ .f32 0x7F800000#32
  let main_v90 : FVec F S128000 .f32 := broadcastInDim S128000 ![] bcast_S_S128000 main_cst_34
  let main_v91 : IVec S128000 1 := cmpf .olt main_v89 main_v90
  let main_c_35 : IVec S_ 1 := constantI S_ 1 1#1
  let main_v92 : IVec S_ 1 := (fun x v => Host.reduce IntOp.andi x v reducesTo_S128000_S_d0 h_S_) main_v91 main_c_35
  let main_v93 : IVec S_ 1 := andi main_v88 main_v92
  main_v93

def fn_part4 {F : FTy → Type} [FloatOps F] (main_arg14 : FVec F S200 .f32) (main_arg15 : FVec F S200 .f32) (main_arg16 : FVec F S200 .f32) (main_arg17 : FVec F S200 .f32) (main_arg18 : FVec F S128000 .f32) (main_v63 : IVec S_ 1) (main_v67 : IVec S_ 1) : IVec S_ 1 :=
  let main_v68 : IVec S_ 1 := andi main_v63 main_v67
  let main_v69 : FVec F S200 .f32 := Host.absf main_arg14
  let main_cst_26 : FVec F S_ .f32 := constant S_ .f32 0x7F800000#32
  let main_v70 : FVec F S200 .f32 := broadcastInDim S200 ![] bcast_S_S200 main_cst_26
  let main_v71 : IVec S200 1 := cmpf .olt main_v69 main_v70
  let main_c_27 : IVec S_ 1 := constantI S_ 1 1#1
  let main_v72 : IVec S_ 1 := (fun x v => Host.reduce IntOp.andi x v reducesTo_S200_S_d0 h_S_) main_v71 main_c_27
  let main_v73 : IVec S_ 1 := andi main_v68 main_v72
  let main_v74 : FVec F S200 .f32 := Host.absf main_arg15
  let main_cst_28 : FVec F S_ .f32 := constant S_ .f32 0x7F800000#32
  let main_v75 : FVec F S200 .f32 := broadcastInDim S200 ![] bcast_S_S200 main_cst_28
  let main_v76 : IVec S200 1 := cmpf .olt main_v74 main_v75
  let main_c_29 : IVec S_ 1 := constantI S_ 1 1#1
  let main_v77 : IVec S_ 1 := (fun x v => Host.reduce IntOp.andi x v reducesTo_S200_S_d0 h_S_) main_v76 main_c_29
  let main_v78 : IVec S_ 1 := andi main_v73 main_v77
  let main_v79 : FVec F S200 .f32 := Host.absf main_arg16
  let main_cst_30 : FVec F S_ .f32 := constant S_ .f32 0x7F800000#32
  let main_v80 : FVec F S200 .f32 := broadcastInDim S200 ![] bcast_S_S200 main_cst_30
  let main_v81 : IVec S200 1 := cmpf .olt main_v79 main_v80
  let main_c_31 : IVec S_ 1 := constantI S_ 1 1#1
  let main_v82 : IVec S_ 1 := (fun x v => Host.reduce IntOp.andi x v reducesTo_S200_S_d0 h_S_) main_v81 main_c_31
  let main_v83 : IVec S_ 1 := andi main_v78 main_v82
  let main_v84 : FVec F S200 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S32 .f32) (main_arg12 : FVec F S32 .f32) (main_arg13 : FVec F S32 .f32) (main_arg14 : FVec F S200 .f32) (main_arg15 : FVec F S200 .f32) (main_arg16 : FVec F S200 .f32) (main_arg17 : FVec F S200 .f32) (main_arg18 : FVec F S128000 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_arg15 main_arg16 main_arg17 main_arg18 main_v63 main_v67

def fn_part2 {F : FTy → Type} [FloatOps F] (main_arg7 : FVec F S1 .f32) (main_arg8 : FVec F S1 .f32) (main_arg9 : FVec F S1 .f32) (main_arg10 : FVec F S32 .f32) (main_arg11 : FVec F S32 .f32) (main_arg12 : FVec F S32 .f32) (main_arg13 : FVec F S32 .f32) (main_arg14 : FVec F S200 .f32) (main_arg15 : FVec F S200 .f32) (main_arg16 : FVec F S200 .f32) (main_arg17 : FVec F S200 .f32) (main_arg18 : FVec F S128000 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_arg15 main_arg16 main_arg17 main_arg18 main_v48 main_v49 main_v50

def fn_part1 {F : FTy → Type} [FloatOps F] (main_arg4 : FVec F S200x6144 .f32) (main_arg5 : FVec F S200 .f32) (main_arg6 : FVec F S1 .f32) (main_arg7 : FVec F S1 .f32) (main_arg8 : FVec F S1 .f32) (main_arg9 : FVec F S1 .f32) (main_arg10 : FVec F S32 .f32) (main_arg11 : FVec F S32 .f32) (main_arg12 : FVec F S32 .f32) (main_arg13 : FVec F S32 .f32) (main_arg14 : FVec F S200 .f32) (main_arg15 : FVec F S200 .f32) (main_arg16 : FVec F S200 .f32) (main_arg17 : FVec F S200 .f32) (main_arg18 : FVec F S128000 .f32) (main_v13 : IVec S_ 1) (main_v16 : IVec S288 1) : IVec S_ 1 :=
  let main_c_5 : IVec S_ 1 := constantI S_ 1 1#1
  let main_v17 : IVec S_ 1 := (fun x v => Host.reduce IntOp.andi x v reducesTo_S288_S_d0 h_S_) main_v16 main_c_5
  let main_v18 : IVec S_ 1 := andi main_v13 main_v17
  let main_v19 : FVec F S200x6144 .f32 := Host.absf main_arg4
  let main_cst_6 : FVec F S_ .f32 := constant S_ .f32 0x7F800000#32
  let main_v20 : FVec F S200x6144 .f32 := broadcastInDim S200x6144 ![] bcast_S_S200x6144 main_cst_6
  let main_v21 : IVec S200x6144 1 := cmpf .olt main_v19 main_v20
  let main_c_7 : IVec S_ 1 := constantI S_ 1 1#1
  let main_v22 : IVec S_ 1 := (fun x v => Host.reduce IntOp.andi x v reducesTo_S200x6144_S_d0_1 h_S_) main_v21 main_c_7
  let main_v23 : IVec S_ 1 := andi main_v18 main_v22
  let main_v24 : FVec F S200 .f32 := Host.absf main_arg5
  let main_cst_8 : FVec F S_ .f32 := constant S_ .f32 0x7F800000#32
  let main_v25 : FVec F S200 .f32 := broadcastInDim S200 ![] bcast_S_S200 main_cst_8
  let main_v26 : IVec S200 1 := cmpf .olt main_v24 main_v25
  let main_c_9 : IVec S_ 1 := constantI S_ 1 1#1
  let main_v27 : IVec S_ 1 := (fun x v => Host.reduce IntOp.andi x v reducesTo_S200_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S128000x200 .f32) (main_arg1 : FVec F S500x200 .f32) (main_arg2 : FVec F S288x200 .f32) (main_arg3 : FVec F S288 .f32) (main_arg4 : FVec F S200x6144 .f32) (main_arg5 : FVec F S200 .f32) (main_arg6 : FVec F S1 .f32) (main_arg7 : FVec F S1 .f32) (main_arg8 : FVec F S1 .f32) (main_arg9 : FVec F S1 .f32) (main_arg10 : FVec F S32 .f32) (main_arg11 : FVec F S32 .f32) (main_arg12 : FVec F S32 .f32) (main_arg13 : FVec F S32 .f32) (main_arg14 : FVec F S200 .f32) (main_arg15 : FVec F S200 .f32) (main_arg16 : FVec F S200 .f32) (main_arg17 : FVec F S200 .f32) (main_arg18 : FVec F S128000 .f32) (main_arg19 : IVec S1024 32) (main_arg20 : IVec S1024 32) : IVec S_ 1 :=
  let main_v0 : FVec F S128000x200 .f32 := Host.absf main_arg0
  let main_cst : FVec F S_ .f32 := constant S_ .f32 0x7F800000#32
  let main_v1 : FVec F S128000x200 .f32 := broadcastInDim S128000x200 ![] bcast_S_S128000x200 main_cst
  let main_v2 : IVec S128000x200 1 := cmpf .olt main_v0 main_v1
  let main_c : IVec S_ 1 := constantI S_ 1 1#1
  let main_v3 : IVec S_ 1 := (fun x v => Host.reduce IntOp.andi x v reducesTo_S128000x200_S_d0_1 h_S_) main_v2 main_c
  let main_v4 : FVec F S500x200 .f32 := Host.absf main_arg1
  let main_cst_0 : FVec F S_ .f32 := constant S_ .f32 0x7F800000#32
  let main_v5 : FVec F S500x200 .f32 := broadcastInDim S500x200 ![] bcast_S_S500x200 main_cst_0
  let main_v6 : IVec S500x200 1 := cmpf .olt main_v4 main_v5
  let main_c_1 : IVec S_ 1 := constantI S_ 1 1#1
  let main_v7 : IVec S_ 1 := (fun x v => Host.reduce IntOp.andi x v reducesTo_S500x200_S_d0_1 h_S_) main_v6 main_c_1
  let main_v8 : IVec S_ 1 := andi main_v3 main_v7
  let main_v9 : FVec F S288x200 .f32 := Host.absf main_arg2
  let main_cst_2 : FVec F S_ .f32 := constant S_ .f32 0x7F800000#32
  let main_v10 : FVec F S288x200 .f32 := broadcastInDim S288x200 ![] bcast_S_S288x200 main_cst_2
  let main_v11 : IVec S288x200 1 := cmpf .olt main_v9 main_v10
  let main_c_3 : IVec S_ 1 := constantI S_ 1 1#1
  let main_v12 : IVec S_ 1 := (fun x v => Host.reduce IntOp.andi x v reducesTo_S288x200_S_d0_1 h_S_) main_v11 main_c_3
  let main_v13 : IVec S_ 1 := andi main_v8 main_v12
  let main_v14 : FVec F S288 .f32 := Host.absf main_arg3
  let main_cst_4 : FVec F S_ .f32 := constant S_ .f32 0x7F800000#32
  let main_v15 : FVec F S288 .f32 := broadcastInDim S288 ![] bcast_S_S288 main_cst_4
  let main_v16 : IVec S288 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S128000x200 : Shape := ⟨2, ![128000, 200]⟩
abbrev S500x200 : Shape := ⟨2, ![500, 200]⟩
abbrev S288x200 : Shape := ⟨2, ![288, 200]⟩
abbrev S288 : Shape := ⟨1, ![288]⟩
abbrev S200x6144 : Shape := ⟨2, ![200, 6144]⟩
abbrev S200 : Shape := ⟨1, ![200]⟩
abbrev S1 : Shape := ⟨1, ![1]⟩
abbrev S32 : Shape := ⟨1, ![32]⟩
abbrev S128000 : Shape := ⟨1, ![128000]⟩
abbrev S1024 : Shape := ⟨1, ![1024]⟩
abbrev S_ : Shape := ⟨0, ![]⟩
abbrev S1024x1 : Shape := ⟨2, ![1024, 1]⟩
abbrev S1024x200 : Shape := ⟨2, ![1024, 200]⟩
abbrev S256x200 : Shape := ⟨2, ![256, 200]⟩
abbrev S200x288 : Shape := ⟨2, ![200, 288]⟩
abbrev S256x288 : Shape := ⟨2, ![256, 288]⟩
abbrev S1x288 : Shape := ⟨2, ![1, 288]⟩
abbrev S256x32x9 : Shape := ⟨3, ![256, 32, 9]⟩
abbrev S1x1 : Shape := ⟨2, ![1, 1]⟩
abbrev S256x32x192 : Shape := ⟨3, ![256, 32, 192]⟩
abbrev S256x192 : Shape := ⟨2, ![256, 192]⟩
abbrev S256x32x1 : Shape := ⟨3, ![256, 32, 1]⟩
abbrev S256x32 : Shape := ⟨2, ![256, 32]⟩
abbrev S256x1x192 : Shape := ⟨3, ![256, 1, 192]⟩
abbrev S1x32x1 : Shape := ⟨3, ![1, 32, 1]⟩
abbrev S256x6144 : Shape := ⟨2, ![256, 6144]⟩
abbrev S6144x200 : Shape := ⟨2, ![6144, 200]⟩
abbrev S1x200 : Shape := ⟨2, ![1, 200]⟩
abbrev S1x128000 : Shape := ⟨2, ![1, 128000]⟩
abbrev S1024x128000 : Shape := ⟨2, ![1024, 128000]⟩
abbrev S2560x200 : Shape := ⟨2, ![2560, 200]⟩
abbrev S1x2560 : Shape := ⟨2, ![1, 2560]⟩
abbrev S1024x2560 : Shape := ⟨2, ![1024, 2560]⟩
abbrev S200x2560 : Shape := ⟨2, ![200, 2560]⟩

abbrev nBuf : Space → Nat
  | .hbm => 46
  | .vmem => 29
  | .smem => 0
  | _ => 0

abbrev bufTy : (tb : Table) → Fin (tcTables nBuf tb) → BufTy
  | .hbm, ⟨0, _⟩ => ⟨S128000x200, .f32⟩
  | .hbm, ⟨1, _⟩ => ⟨S500x200, .f32⟩
  | .hbm, ⟨2, _⟩ => ⟨S288x200, .f32⟩
  | .hbm, ⟨3, _⟩ => ⟨S288, .f32⟩
  | .hbm, ⟨4, _⟩ => ⟨S200x6144, .f32⟩
  | .hbm, ⟨5, _⟩ => ⟨S200, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S200, .f32⟩
  | .hbm, ⟨15, _⟩ => ⟨S200, .f32⟩
  | .hbm, ⟨16, _⟩ => ⟨S200, .f32⟩
  | .hbm, ⟨17, _⟩ => ⟨S200, .f32⟩
  | .hbm, ⟨18, _⟩ => ⟨S128000, .f32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x200, .f32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1024x200, .f32⟩
  | .hbm, ⟨39, _⟩ => ⟨S1024x200, .bf16⟩
  | .hbm, ⟨40, _⟩ => ⟨S288x200, .bf16⟩
  | .hbm, ⟨41, _⟩ => ⟨S200x6144, .bf16⟩
  | .hbm, ⟨42, _⟩ => ⟨S1024x200, .f32⟩
  | .hbm, ⟨43, _⟩ => ⟨S1024x200, .bf16⟩
  | .hbm, ⟨44, _⟩ => ⟨S1x128000, .f32⟩
  | .hbm, ⟨45, _⟩ => ⟨S1024x128000, .f32⟩
  | .local _ .vmem, ⟨0, _⟩ => ⟨S256x200, .bf16⟩
  | .local _ .vmem, ⟨1, _⟩ => ⟨S256x200, .bf16⟩
  | .local _ .vmem, ⟨2, _⟩ => ⟨S256x200, .f32⟩
  | .local _ .vmem, ⟨3, _⟩ => ⟨S256x200, .f32⟩
  | .local _ .vmem, ⟨4, _⟩ => ⟨S288x200, .bf16⟩
  | .local _ .vmem, ⟨5, _⟩ => ⟨S288, .f32⟩
  | .local _ .vmem, ⟨6, _⟩ => ⟨S200x6144, .bf16⟩
  | .local _ .vmem, ⟨7, _⟩ => ⟨S200, .f32⟩
  | .local _ .vmem, ⟨8, _⟩ => ⟨S1, .f32⟩
  | .local _ .vmem, ⟨9, _⟩ => ⟨S1, .f32⟩
  | .local _ .vmem, ⟨10, _⟩ => ⟨S1, .f32⟩
  | .local _ .vmem, ⟨11, _⟩ => ⟨S1, .f32⟩
  | .local _ .vmem, ⟨12, _⟩ => ⟨S32, .f32⟩
  | .local _ .vmem, ⟨13, _⟩ => ⟨S32, .f32⟩
  | .local _ .vmem, ⟨14, _⟩ => ⟨S32, .f32⟩
  | .local _ .vmem, ⟨15, _⟩ => ⟨S32, .f32⟩
  | .local _ .vmem, ⟨16, _⟩ => ⟨S200, .f32⟩
  | .local _ .vmem, ⟨17, _⟩ => ⟨S200, .f32⟩
  | .local _ .vmem, ⟨18, _⟩ => ⟨S200, .f32⟩
  | .local _ .vmem, ⟨19, _⟩ => ⟨S200, .f32⟩
  | .local _ .vmem, ⟨20, _⟩ => ⟨S256x200, .f32⟩
  | .local _ .vmem, ⟨21, _⟩ => ⟨S256x200, .f32⟩
  | .local _ .vmem, ⟨22, _⟩ => ⟨S1024x200, .bf16⟩
  | .local _ .vmem, ⟨23, _⟩ => ⟨S2560x200, .f32⟩
  | .local _ .vmem, ⟨24, _⟩ => ⟨S2560x200, .f32⟩
  | .local _ .vmem, ⟨25, _⟩ => ⟨S1x2560, .f32⟩
  | .local _ .vmem, ⟨26, _⟩ => ⟨S1x2560, .f32⟩
  | .local _ .vmem, ⟨27, _⟩ => ⟨S1024x2560, .f32⟩
  | .local _ .vmem, ⟨28, _⟩ => ⟨S1024x2560, .f32⟩
  | _, _ => ⟨S128000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc1_stg0_0 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc1_sem0_0 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S288x200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S200x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S200 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S200 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S200 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S200 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x200 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x200 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2560x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2560 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x2560 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bitsLt_bf16_f32 : FTy.bits .bf16 < FTy.bits .f32
  inb_S256x200_S256x200_0_0 : ∀ a, (![0, 0] : Fin 2 → Nat) a + S256x200.size a ≤ S256x200.size a
  h_S256x200 : 0 < S256x200.numel
  shapeCasts_S256x200_S256x200 : S256x200.ShapeCasts S256x200
  inb_S288x200_S288x200_0_0 : ∀ a, (![0, 0] : Fin 2 → Nat) a + S288x200.size a ≤ S288x200.size a
  h_S288x200 : 0 < S288x200.numel
  shapeCasts_S288x200_S288x200 : S288x200.ShapeCasts S288x200
  transposes_S288x200_p1_0_S200x288 : S288x200.Transposes [1, 0] S200x288
  inb_S288_S288_0 : ∀ a, (![0] : Fin 1 → Nat) a + S288.size a ≤ S288.size a
  h_S288 : 0 < S288.numel
  shapeCasts_S288_S1x288 : S288.ShapeCasts S1x288
  broadcasts_S1x288_S256x288 : S1x288.Broadcasts S256x288
  shapeCasts_S256x288_S256x32x9 : S256x288.ShapeCasts S256x32x9
  inb_S1_S1_0 : ∀ a, (![0] : Fin 1 → Nat) a + S1.size a ≤ S1.size a
  h_S1 : 0 < S1.numel
  shapeCasts_S1_S1x1 : S1.ShapeCasts S1x1
  broadcasts_S1x1_S256x200 : S1x1.Broadcasts S256x200
  slices_S256x200_o0_0_S256x192 : S256x200.Slices ![0, 0] S256x192
  slices_S256x32x9_o0_0_0_S256x32x1 : S256x32x9.Slices ![0, 0, 0] S256x32x1
  shapeCasts_S256x32x1_S256x32 : S256x32x1.ShapeCasts S256x32
  shapeCasts_S256x32_S256x32x1 : S256x32.ShapeCasts S256x32x1
  shapeCasts_S256x192_S256x1x192 : S256x192.ShapeCasts S256x1x192
  broadcasts_S256x32x1_S256x32x192 : S256x32x1.Broadcasts S256x32x192
  broadcasts_S256x1x192_S256x32x192 : S256x1x192.Broadcasts S256x32x192
  slices_S256x200_o0_1_S256x192 : S256x200.Slices ![0, 1] S256x192
  slices_S256x32x9_o0_0_1_S256x32x1 : S256x32x9.Slices ![0, 0, 1] S256x32x1
  slices_S256x200_o0_2_S256x192 : S256x200.Slices ![0, 2] S256x192
  slices_S256x32x9_o0_0_2_S256x32x1 : S256x32x9.Slices ![0, 0, 2] S256x32x1
  slices_S256x200_o0_3_S256x192 : S256x200.Slices ![0, 3] S256x192
  slices_S256x32x9_o0_0_3_S256x32x1 : S256x32x9.Slices ![0, 0, 3] S256x32x1
  slices_S256x200_o0_4_S256x192 : S256x200.Slices ![0, 4] S256x192
  slices_S256x32x9_o0_0_4_S256x32x1 : S256x32x9.Slices ![0, 0, 4] S256x32x1
  slices_S256x200_o0_5_S256x192 : S256x200.Slices ![0, 5] S256x192
  slices_S256x32x9_o0_0_5_S256x32x1 : S256x32x9.Slices ![0, 0, 5] S256x32x1
  slices_S256x200_o0_6_S256x192 : S256x200.Slices ![0, 6] S256x192
  slices_S256x32x9_o0_0_6_S256x32x1 : S256x32x9.Slices ![0, 0, 6] S256x32x1
  slices_S256x200_o0_7_S256x192 : S256x200.Slices ![0, 7] S256x192
  slices_S256x32x9_o0_0_7_S256x32x1 : S256x32x9.Slices ![0, 0, 7] S256x32x1
  slices_S256x200_o0_8_S256x192 : S256x200.Slices ![0, 8] S256x192
  slices_S256x32x9_o0_0_8_S256x32x1 : S256x32x9.Slices ![0, 0, 8] S256x32x1
  inb_S32_S32_0 : ∀ a, (![0] : Fin 1 → Nat) a + S32.size a ≤ S32.size a
  h_S32 : 0 < S32.numel
  shapeCasts_S32_S1x32x1 : S32.ShapeCasts S1x32x1
  broadcasts_S1x32x1_S256x32x192 : S1x32x1.Broadcasts S256x32x192
  shapeCasts_S256x32x192_S256x6144 : S256x32x192.ShapeCasts S256x6144
  inb_S200x6144_S200x6144_0_0 : ∀ a, (![0, 0] : Fin 2 → Nat) a + S200x6144.size a ≤ S200x6144.size a
  h_S200x6144 : 0 < S200x6144.numel
  shapeCasts_S200x6144_S200x6144 : S200x6144.ShapeCasts S200x6144
  transposes_S200x6144_p1_0_S6144x200 : S200x6144.Transposes [1, 0] S6144x200
  inb_S200_S200_0 : ∀ a, (![0] : Fin 1 → Nat) a + S200.size a ≤ S200.size a
  h_S200 : 0 < S200.numel
  shapeCasts_S200_S1x200 : S200.ShapeCasts S1x200
  broadcasts_S1x200_S256x200 : S1x200.Broadcasts S256x200
  shapeCasts_S128000_S1x128000 : S128000.ShapeCasts S1x128000
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  inb_S2560x200_S2560x200_0_0 : ∀ a, (![0, 0] : Fin 2 → Nat) a + S2560x200.size a ≤ S2560x200.size a
  h_S2560x200 : 0 < S2560x200.numel
  transposes_S2560x200_p1_0_S200x2560 : S2560x200.Transposes [1, 0] S200x2560
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S1024x2560 : S1x2560.Broadcasts S1024x2560
  inb_S1024x2560_S1024x2560_0_0 : ∀ a, (![0, 0] : Fin 2 → Nat) a + S1024x2560.size a ≤ S1024x2560.size a
  h_S1024x2560 : 0 < S1024x2560.numel
  gather_S500x200_S1024x1_S1024x200_1_0_n_n_0_1_1200_wf : GatherDims.WF S500x200 S1024x1 S1024x200 [1] [0] [] [0] [] 1 ![1, 200]
  gather_S128000x200_S1024x1_S1024x200_1_0_n_n_0_1_1200_wf : GatherDims.WF S128000x200 S1024x1 S1024x200 [1] [0] [] [0] [] 1 ![1, 200]
  dot_S256x200_S200x288_S256x288_1_0_0_1_n_n_wf : DotDims.WF S256x200 S200x288 S256x288 [1] [0] [0] [1] [] []
  dot_S256x6144_S6144x200_S256x200_1_0_0_1_n_n_wf : DotDims.WF S256x6144 S6144x200 S256x200 [1] [0] [0] [1] [] []
  dot_S1024x200_S200x2560_S1024x2560_1_0_0_1_n_n_wf : DotDims.WF S1024x200 S200x2560 S1024x2560 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x200.size a ≤ S1024x200.size a
  hwx0_0 : ∀ i : grid0.Coords, EltTy.bits .bf16 = 32 ∨ (Rect.block (s := S1024x200) S256x200.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x200.size a ≤ S1024x200.size a
  hwx0_1 : ∀ i : grid0.Coords, EltTy.bits .f32 = 32 ∨ (Rect.block (s := S1024x200) S256x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S288x200.size a ≤ S288x200.size a
  hwx0_2 : ∀ i : grid0.Coords, EltTy.bits .bf16 = 32 ∨ (Rect.block (s := S288x200) S288x200.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S288.size a ≤ S288.size a
  hwx0_3 : ∀ i : grid0.Coords, EltTy.bits .f32 = 32 ∨ (Rect.block (s := S288) S288.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S200x6144.size a ≤ S200x6144.size a
  hwx0_4 : ∀ i : grid0.Coords, EltTy.bits .bf16 = 32 ∨ (Rect.block (s := S200x6144) S200x6144.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S200.size a ≤ S200.size a
  hwx0_5 : ∀ i : grid0.Coords, EltTy.bits .f32 = 32 ∨ (Rect.block (s := S200) S200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32.size a ≤ S32.size a
  hwx0_11 : ∀ i : grid0.Coords, EltTy.bits .f32 = 32 ∨ (Rect.block (s := S32) S32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32.size a ≤ S32.size a
  hwx0_12 : ∀ i : grid0.Coords, EltTy.bits .f32 = 32 ∨ (Rect.block (s := S32) S32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32.size a ≤ S32.size a
  hwx0_13 : ∀ i : grid0.Coords, EltTy.bits .f32 = 32 ∨ (Rect.block (s := S32) S32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S200.size a ≤ S200.size a
  hwx0_14 : ∀ i : grid0.Coords, EltTy.bits .f32 = 32 ∨ (Rect.block (s := S200) S200.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S200.size a ≤ S200.size a
  hwx0_15 : ∀ i : grid0.Coords, EltTy.bits .f32 = 32 ∨ (Rect.block (s := S200) S200.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S200.size a ≤ S200.size a
  hwx0_16 : ∀ i : grid0.Coords, EltTy.bits .f32 = 32 ∨ (Rect.block (s := S200) S200.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S200.size a ≤ S200.size a
  hwx0_17 : ∀ i : grid0.Coords, EltTy.bits .f32 = 32 ∨ (Rect.block (s := S200) S200.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x200.size a ≤ S1024x200.size a
  hwx0_18 : ∀ i : grid0.Coords, EltTy.bits .f32 = 32 ∨ (Rect.block (s := S1024x200) S256x200.size (cc0_transform_18 i) (hinb0_18 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x200.size a ≤ S1024x200.size a
  hwx1_0 : ∀ i : grid1.Coords, EltTy.bits .bf16 = 32 ∨ (Rect.block (s := S1024x200) S1024x200.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x200.size a ≤ S128000x200.size a
  hwx1_1 : ∀ i : grid1.Coords, EltTy.bits .f32 = 32 ∨ (Rect.block (s := S128000x200) S2560x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2560.size a ≤ S1x128000.size a
  hwx1_2 : ∀ i : grid1.Coords, EltTy.bits .f32 = 32 ∨ (Rect.block (s := S1x128000) S1x2560.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2560.size a ≤ S1024x128000.size a
  hwx1_3 : ∀ i : grid1.Coords, EltTy.bits .f32 = 32 ∨ (Rect.block (s := S1024x128000) S1024x2560.size (cc1_transform_3 i) (hinb1_3 i)).WholeWords (EltTy.packing .f32)

variable [Facts₀]

def gather_S500x200_S1024x1_S1024x200_1_0_n_n_0_1_1200 : GatherDims S500x200 S1024x1 S1024x200 where
  offsetDims := [1]
  collapsedSliceDims := [0]
  operandBatchingDims := []
  startIndicesBatchingDims := []
  startIndexMap := [0]
  indexVectorDim := 1
  sliceSizes := ![1, 200]
  wf := gather_S500x200_S1024x1_S1024x200_1_0_n_n_0_1_1200_wf
def gather_S128000x200_S1024x1_S1024x200_1_0_n_n_0_1_1200 : GatherDims S128000x200 S1024x1 S1024x200 where
  offsetDims := [1]
  collapsedSliceDims := [0]
  operandBatchingDims := []
  startIndicesBatchingDims := []
  startIndexMap := [0]
  indexVectorDim := 1
  sliceSizes := ![1, 200]
  wf := gather_S128000x200_S1024x1_S1024x200_1_0_n_n_0_1_1200_wf
def dot_S256x200_S200x288_S256x288_1_0_0_1_n_n : DotDims S256x200 S200x288 S256x288 where
  lhsContracting := [1]
  rhsContracting := [0]
  lhsNonContracting := [0]
  rhsNonContracting := [1]
  lhsBatch := []
  rhsBatch := []
  wf := dot_S256x200_S200x288_S256x288_1_0_0_1_n_n_wf
def dot_S256x6144_S6144x200_S256x200_1_0_0_1_n_n : DotDims S256x6144 S6144x200 S256x200 where
  lhsContracting := [1]
  rhsContracting := [0]
  lhsNonContracting := [0]
  rhsNonContracting := [1]
  lhsBatch := []
  rhsBatch := []
  wf := dot_S256x6144_S6144x200_S256x200_1_0_0_1_n_n_wf
def dot_S1024x200_S200x2560_S1024x2560_1_0_0_1_n_n : DotDims S1024x200 S200x2560 S1024x2560 where
  lhsContracting := [1]
  rhsContracting := [0]
  lhsNonContracting := [0]
  rhsNonContracting := [1]
  lhsBatch := []
  rhsBatch := []
  wf := dot_S1024x200_S200x2560_S1024x2560_1_0_0_1_n_n_wf

abbrev win0_0 : Pipeline.Window sig grid0 :=
  Pipeline.Window.ofSpec (Memref.whole main_v14) S256x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S288x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S288.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S200x6144.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S200.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S200.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S200.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S200.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v17) S256x200.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v18) S1024x200.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2560x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x2560.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1024x2560.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S128000x200 : Shape := ⟨2, ![128000, 200]⟩
abbrev S500x200 : Shape := ⟨2, ![500, 200]⟩
abbrev S288x200 : Shape := ⟨2, ![288, 200]⟩
abbrev S288 : Shape := ⟨1, ![288]⟩
abbrev S200x6144 : Shape := ⟨2, ![200, 6144]⟩
abbrev S200 : Shape := ⟨1, ![200]⟩
abbrev S1 : Shape := ⟨1, ![1]⟩
abbrev S32 : Shape := ⟨1, ![32]⟩
abbrev S128000 : Shape := ⟨1, ![128000]⟩
abbrev S1024 : Shape := ⟨1, ![1024]⟩
abbrev S_ : Shape := ⟨0, ![]⟩
abbrev S1024x1 : Shape := ⟨2, ![1024, 1]⟩
abbrev S1024x200 : Shape := ⟨2, ![1024, 200]⟩
abbrev S200x288 : Shape := ⟨2, ![200, 288]⟩
abbrev S1024x288 : Shape := ⟨2, ![1024, 288]⟩
abbrev S1x288 : Shape := ⟨2, ![1, 288]⟩
abbrev S1024x32x9 : Shape := ⟨3, ![1024, 32, 9]⟩
abbrev S1x1 : Shape := ⟨2, ![1, 1]⟩
abbrev S192 : Shape := ⟨1, ![192]⟩
abbrev S192x1 : Shape := ⟨2, ![192, 1]⟩
abbrev S9 : Shape := ⟨1, ![9]⟩
abbrev S1x9 : Shape := ⟨2, ![1, 9]⟩
abbrev S192x9 : Shape := ⟨2, ![192, 9]⟩
abbrev S192x9x1 : Shape := ⟨3, ![192, 9, 1]⟩
abbrev S1024x192x9 : Shape := ⟨3, ![1024, 192, 9]⟩
abbrev S1024x32x192 : Shape := ⟨3, ![1024, 32, 192]⟩
abbrev S1x32x1 : Shape := ⟨3, ![1, 32, 1]⟩
abbrev S1024x6144 : Shape := ⟨2, ![1024, 6144]⟩
abbrev S6144x200 : Shape := ⟨2, ![6144, 200]⟩
abbrev S1x200 : Shape := ⟨2, ![1, 200]⟩
abbrev S200x128000 : Shape := ⟨2, ![200, 128000]⟩
abbrev S1024x128000 : Shape := ⟨2, ![1024, 128000]⟩
abbrev S1x128000 : Shape := ⟨2, ![1, 128000]⟩

abbrev nBuf : Space → Nat
  | .hbm => 126
  | .vmem => 0
  | .smem => 0
  | _ => 0

abbrev bufTy : (tb : Table) → Fin (tcTables nBuf tb) → BufTy
  | .hbm, ⟨0, _⟩ => ⟨S128000x200, .f32⟩
  | .hbm, ⟨1, _⟩ => ⟨S500x200, .f32⟩
  | .hbm, ⟨2, _⟩ => ⟨S288x200, .f32⟩
  | .hbm, ⟨3, _⟩ => ⟨S288, .f32⟩
  | .hbm, ⟨4, _⟩ => ⟨S200x6144, .f32⟩
  | .hbm, ⟨5, _⟩ => ⟨S200, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S200, .f32⟩
  | .hbm, ⟨15, _⟩ => ⟨S200, .f32⟩
  | .hbm, ⟨16, _⟩ => ⟨S200, .f32⟩
  | .hbm, ⟨17, _⟩ => ⟨S200, .f32⟩
  | .hbm, ⟨18, _⟩ => ⟨S128000, .f32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x200, .f32⟩
  | .hbm, ⟨30, _⟩ => ⟨S200x288, .f32⟩
  | .hbm, ⟨31, _⟩ => ⟨S1024x288, .f32⟩
  | .hbm, ⟨32, _⟩ => ⟨S1x288, .f32⟩
  | .hbm, ⟨33, _⟩ => ⟨S1024x288, .f32⟩
  | .hbm, ⟨34, _⟩ => ⟨S1024x288, .f32⟩
  | .hbm, ⟨35, _⟩ => ⟨S1024x32x9, .f32⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S_, .i32⟩
  | .hbm, ⟨40, _⟩ => ⟨S1024, .i32⟩
  | .hbm, ⟨41, _⟩ => ⟨S1024, .i32⟩
  | .hbm, ⟨42, _⟩ => ⟨S1024, .i32⟩
  | .hbm, ⟨43, _⟩ => ⟨S1024x1, .i32⟩
  | .hbm, ⟨44, _⟩ => ⟨S1024x200, .f32⟩
  | .hbm, ⟨45, _⟩ => ⟨S1x1, .f32⟩
  | .hbm, ⟨46, _⟩ => ⟨S1024x200, .f32⟩
  | .hbm, ⟨47, _⟩ => ⟨S1024x200, .f32⟩
  | .hbm, ⟨48, _⟩ => ⟨S_, .f32⟩
  | .hbm, ⟨49, _⟩ => ⟨S1, .f32⟩
  | .hbm, ⟨50, _⟩ => ⟨S1, .f32⟩
  | .hbm, ⟨51, _⟩ => ⟨S1, .f32⟩
  | .hbm, ⟨52, _⟩ => ⟨S1, .f32⟩
  | .hbm, ⟨53, _⟩ => ⟨S1x1, .f32⟩
  | .hbm, ⟨54, _⟩ => ⟨S1024x200, .f32⟩
  | .hbm, ⟨55, _⟩ => ⟨S1024x200, .f32⟩
  | .hbm, ⟨56, _⟩ => ⟨S1x1, .f32⟩
  | .hbm, ⟨57, _⟩ => ⟨S1024x200, .f32⟩
  | .hbm, ⟨58, _⟩ => ⟨S1024x200, .f32⟩
  | .hbm, ⟨59, _⟩ => ⟨S192, .i32⟩
  | .hbm, ⟨60, _⟩ => ⟨S192x1, .i32⟩
  | .hbm, ⟨61, _⟩ => ⟨S9, .i32⟩
  | .hbm, ⟨62, _⟩ => ⟨S1x9, .i32⟩
  | .hbm, ⟨63, _⟩ => ⟨S192x9, .i32⟩
  | .hbm, ⟨64, _⟩ => ⟨S192x9, .i32⟩
  | .hbm, ⟨65, _⟩ => ⟨S192x9, .i32⟩
  | .hbm, ⟨66, _⟩ => ⟨S_, .i32⟩
  | .hbm, ⟨67, _⟩ => ⟨S192x9, .i32⟩
  | .hbm, ⟨68, _⟩ => ⟨S192x9, .i1⟩
  | .hbm, ⟨69, _⟩ => ⟨S_, .i32⟩
  | .hbm, ⟨70, _⟩ => ⟨S192x9, .i32⟩
  | .hbm, ⟨71, _⟩ => ⟨S192x9, .i32⟩
  | .hbm, ⟨72, _⟩ => ⟨S192x9, .i32⟩
  | .hbm, ⟨73, _⟩ => ⟨S192x9x1, .i32⟩
  | .hbm, ⟨74, _⟩ => ⟨S1024x192x9, .f32⟩
  | .hbm, ⟨75, _⟩ => ⟨S1024x32x192, .f32⟩
  | .hbm, ⟨76, _⟩ => ⟨S1x32x1, .f32⟩
  | .hbm, ⟨77, _⟩ => ⟨S1024x32x192, .f32⟩
  | .hbm, ⟨78, _⟩ => ⟨S1024x32x192, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S32, .f32⟩
  | .hbm, ⟨83, _⟩ => ⟨S32, .f32⟩
  | .hbm, ⟨84, _⟩ => ⟨S1x32x1, .f32⟩
  | .hbm, ⟨85, _⟩ => ⟨S1024x32x192, .f32⟩
  | .hbm, ⟨86, _⟩ => ⟨S1024x32x192, .f32⟩
  | .hbm, ⟨87, _⟩ => ⟨S1x32x1, .f32⟩
  | .hbm, ⟨88, _⟩ => ⟨S1024x32x192, .f32⟩
  | .hbm, ⟨89, _⟩ => ⟨S1024x32x192, .f32⟩
  | .hbm, ⟨90, _⟩ => ⟨S1024x6144, .f32⟩
  | .hbm, ⟨91, _⟩ => ⟨S6144x200, .f32⟩
  | .hbm, ⟨92, _⟩ => ⟨S1024x200, .f32⟩
  | .hbm, ⟨93, _⟩ => ⟨S1x200, .f32⟩
  | .hbm, ⟨94, _⟩ => ⟨S1024x200, .f32⟩
  | .hbm, ⟨95, _⟩ => ⟨S1024x200, .f32⟩
  | .hbm, ⟨96, _⟩ => ⟨S1x200, .f32⟩
  | .hbm, ⟨97, _⟩ => ⟨S1024x200, .f32⟩
  | .hbm, ⟨98, _⟩ => ⟨S1024x200, .f32⟩
  | .hbm, ⟨99, _⟩ => ⟨S_, .f32⟩
  | .hbm, ⟨100, _⟩ => ⟨S200, .f32⟩
  | .hbm, ⟨101, _⟩ => ⟨S200, .f32⟩
  | .hbm, ⟨102, _⟩ => ⟨S200, .f32⟩
  | .hbm, ⟨103, _⟩ => ⟨S200, .f32⟩
  | .hbm, ⟨104, _⟩ => ⟨S1x200, .f32⟩
  | .hbm, ⟨105, _⟩ => ⟨S1024x200, .f32⟩
  | .hbm, ⟨106, _⟩ => ⟨S1024x200, .f32⟩
  | .hbm, ⟨107, _⟩ => ⟨S1x200, .f32⟩
  | .hbm, ⟨108, _⟩ => ⟨S1024x200, .f32⟩
  | .hbm, ⟨109, _⟩ => ⟨S1024x200, .f32⟩
  | .hbm, ⟨110, _⟩ => ⟨S_, .f32⟩
  | .hbm, ⟨111, _⟩ => ⟨S1024x200, .f32⟩
  | .hbm, ⟨112, _⟩ => ⟨S1024x200, .f32⟩
  | .hbm, ⟨113, _⟩ => ⟨S200x128000, .f32⟩
  | .hbm, ⟨114, _⟩ => ⟨S1024x128000, .f32⟩
  | .hbm, ⟨115, _⟩ => ⟨S1x128000, .f32⟩
  | .hbm, ⟨116, _⟩ => ⟨S1024x128000, .f32⟩
  | .hbm, ⟨117, _⟩ => ⟨S1024x128000, .f32⟩
  | .hbm, ⟨118, _⟩ => ⟨S1024x128000, .f32⟩
  | .hbm, ⟨119, _⟩ => ⟨S1024x128000, .f32⟩
  | .hbm, ⟨120, _⟩ => ⟨S_, .f32⟩
  | .hbm, ⟨121, _⟩ => ⟨S1024x128000, .f32⟩
  | .hbm, ⟨122, _⟩ => ⟨S1024x128000, .f32⟩
  | .hbm, ⟨123, _⟩ => ⟨S_, .f32⟩
  | .hbm, ⟨124, _⟩ => ⟨S1024x128000, .f32⟩
  | .hbm, ⟨125, _⟩ => ⟨S1024x128000, .f32⟩
  | _, _ => ⟨S128000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_1 : Ref sig .tc := ⟨.hbm, 36, rfl⟩
abbrev main_v13 : Ref sig .tc := ⟨.hbm, 37, rfl⟩
abbrev main_v14 : Ref sig .tc := ⟨.hbm, 38, rfl⟩
abbrev main_c_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_3 : Ref sig .tc := ⟨.hbm, 66, rfl⟩
abbrev main_v40 : Ref sig .tc := ⟨.hbm, 67, rfl⟩
abbrev main_v41 : Ref sig .tc := ⟨.hbm, 68, rfl⟩
abbrev main_c_4 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_5 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_6 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call0_cst : Ref sig .tc := ⟨.hbm, 110, rfl⟩
abbrev main_call0_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_7 : Ref sig .tc := ⟨.hbm, 120, rfl⟩
abbrev main_v88 : Ref sig .tc := ⟨.hbm, 121, rfl⟩
abbrev main_v89 : Ref sig .tc := ⟨.hbm, 122, rfl⟩
abbrev main_cst_8 : Ref sig .tc := ⟨.hbm, 123, rfl⟩
abbrev main_v90 : Ref sig .tc := ⟨.hbm, 124, rfl⟩
abbrev main_v91 : Ref sig .tc := ⟨.hbm, 125, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S288x200_S200x288_1_0 : S288x200.Transposes [1, 0] S200x288
  bcast_S288_S1x288_1 : S288.BroadcastsInDim S1x288 (![1] : Fin 1 → Fin S1x288.rank)
  bcast_S1x288_S1024x288_0_1 : S1x288.BroadcastsInDim S1024x288 (![0, 1] : Fin 2 → Fin S1024x288.rank)
  shapeCasts_S1024x288_S1024x32x9 : S1024x288.ShapeCasts S1024x32x9
  bcast_S1_S1x1_1 : S1.BroadcastsInDim S1x1 (![1] : Fin 1 → Fin S1x1.rank)
  bcast_S1x1_S1024x200_0_1 : S1x1.BroadcastsInDim S1024x200 (![0, 1] : Fin 2 → Fin S1024x200.rank)
  bcast_S_S1 : S_.BroadcastsInDim S1 (![] : Fin 0 → Fin S1.rank)
  bcast_S192_S192x1_0 : S192.BroadcastsInDim S192x1 (![0] : Fin 1 → Fin S192x1.rank)
  bcast_S9_S1x9_1 : S9.BroadcastsInDim S1x9 (![1] : Fin 1 → Fin S1x9.rank)
  bcast_S192x1_S192x9_0_1 : S192x1.BroadcastsInDim S192x9 (![0, 1] : Fin 2 → Fin S192x9.rank)
  bcast_S1x9_S192x9_0_1 : S1x9.BroadcastsInDim S192x9 (![0, 1] : Fin 2 → Fin S192x9.rank)
  bcast_S_S192x9 : S_.BroadcastsInDim S192x9 (![] : Fin 0 → Fin S192x9.rank)
  bcast_S192x9_S192x9x1_0_1 : S192x9.BroadcastsInDim S192x9x1 (![0, 1] : Fin 2 → Fin S192x9x1.rank)
  bcast_S32_S1x32x1_1 : S32.BroadcastsInDim S1x32x1 (![1] : Fin 1 → Fin S1x32x1.rank)
  bcast_S1x32x1_S1024x32x192_0_1_2 : S1x32x1.BroadcastsInDim S1024x32x192 (![0, 1, 2] : Fin 3 → Fin S1024x32x192.rank)
  bcast_S_S32 : S_.BroadcastsInDim S32 (![] : Fin 0 → Fin S32.rank)
  shapeCasts_S1024x32x192_S1024x6144 : S1024x32x192.ShapeCasts S1024x6144
  transposes_S200x6144_S6144x200_1_0 : S200x6144.Transposes [1, 0] S6144x200
  bcast_S200_S1x200_1 : S200.BroadcastsInDim S1x200 (![1] : Fin 1 → Fin S1x200.rank)
  bcast_S1x200_S1024x200_0_1 : S1x200.BroadcastsInDim S1024x200 (![0, 1] : Fin 2 → Fin S1024x200.rank)
  bcast_S_S200 : S_.BroadcastsInDim S200 (![] : Fin 0 → Fin S200.rank)
  bcast_S_S1024x200 : S_.BroadcastsInDim S1024x200 (![] : Fin 0 → Fin S1024x200.rank)
  transposes_S128000x200_S200x128000_1_0 : S128000x200.Transposes [1, 0] S200x128000
  bcast_S128000_S1x128000_1 : S128000.BroadcastsInDim S1x128000 (![1] : Fin 1 → Fin S1x128000.rank)
  bcast_S1x128000_S1024x128000_0_1 : S1x128000.BroadcastsInDim S1024x128000 (![0, 1] : Fin 2 → Fin S1024x128000.rank)
  bcast_S_S1024x128000 : S_.BroadcastsInDim S1024x128000 (![] : Fin 0 → Fin S1024x128000.rank)
  gather_S500x200_S1024x1_S1024x200_1_0_n_n_0_1_1200_wf : GatherDims.WF S500x200 S1024x1 S1024x200 [1] [0] [] [0] [] 1 ![1, 200]
  dot_S1024x200_S200x288_S1024x288_1_0_0_1_n_n_wf : DotDims.WF S1024x200 S200x288 S1024x288 [1] [0] [0] [1] [] []
  gather_S128000x200_S1024x1_S1024x200_1_0_n_n_0_1_1200_wf : GatherDims.WF S128000x200 S1024x1 S1024x200 [1] [0] [] [0] [] 1 ![1, 200]
  gather_S1024x200_S192x9x1_S1024x192x9_0_1_n_n_1_2_10241_wf : GatherDims.WF S1024x200 S192x9x1 S1024x192x9 [0] [1] [] [1] [] 2 ![1024, 1]
  dot_S1024x32x9_S1024x192x9_S1024x32x192_2_2_1_1_0_0_wf : DotDims.WF S1024x32x9 S1024x192x9 S1024x32x192 [2] [2] [1] [1] [0] [0]
  dot_S1024x6144_S6144x200_S1024x200_1_0_0_1_n_n_wf : DotDims.WF S1024x6144 S6144x200 S1024x200 [1] [0] [0] [1] [] []
  dot_S1024x200_S200x128000_S1024x128000_1_0_0_1_n_n_wf : DotDims.WF S1024x200 S200x128000 S1024x128000 [1] [0] [0] [1] [] []

variable [Facts₀]

def gather_S500x200_S1024x1_S1024x200_1_0_n_n_0_1_1200 : GatherDims S500x200 S1024x1 S1024x200 where
  offsetDims := [1]
  collapsedSliceDims := [0]
  operandBatchingDims := []
  startIndicesBatchingDims := []
  startIndexMap := [0]
  indexVectorDim := 1
  sliceSizes := ![1, 200]
  wf := gather_S500x200_S1024x1_S1024x200_1_0_n_n_0_1_1200_wf
def dot_S1024x200_S200x288_S1024x288_1_0_0_1_n_n : DotDims S1024x200 S200x288 S1024x288 where
  lhsContracting := [1]
  rhsContracting := [0]
  lhsNonContracting := [0]
  rhsNonContracting := [1]
  lhsBatch := []
  rhsBatch := []
  wf := dot_S1024x200_S200x288_S1024x288_1_0_0_1_n_n_wf
def gather_S128000x200_S1024x1_S1024x200_1_0_n_n_0_1_1200 : GatherDims S128000x200 S1024x1 S1024x200 where
  offsetDims := [1]
  collapsedSliceDims := [0]
  operandBatchingDims := []
  startIndicesBatchingDims := []
  startIndexMap := [0]
  indexVectorDim := 1
  sliceSizes := ![1, 200]
  wf := gather_S128000x200_S1024x1_S1024x200_1_0_n_n_0_1_1200_wf
def gather_S1024x200_S192x9x1_S1024x192x9_0_1_n_n_1_2_10241 : GatherDims S1024x200 S192x9x1 S1024x192x9 where
  offsetDims := [0]
  collapsedSliceDims := [1]
  operandBatchingDims := []
  startIndicesBatchingDims := []
  startIndexMap := [1]
  indexVectorDim := 2
  sliceSizes := ![1024, 1]
  wf := gather_S1024x200_S192x9x1_S1024x192x9_0_1_n_n_1_2_10241_wf
def dot_S1024x32x9_S1024x192x9_S1024x32x192_2_2_1_1_0_0 : DotDims S1024x32x9 S1024x192x9 S1024x32x192 where
  lhsContracting := [2]
  rhsContracting := [2]
  lhsNonContracting := [1]
  rhsNonContracting := [1]
  lhsBatch := [0]
  rhsBatch := [0]
  wf := dot_S1024x32x9_S1024x192x9_S1024x32x192_2_2_1_1_0_0_wf
def dot_S1024x6144_S6144x200_S1024x200_1_0_0_1_n_n : DotDims S1024x6144 S6144x200 S1024x200 where
  lhsContracting := [1]
  rhsContracting := [0]
  lhsNonContracting := [0]
  rhsNonContracting := [1]
  lhsBatch := []
  rhsBatch := []
  wf := dot_S1024x6144_S6144x200_S1024x200_1_0_0_1_n_n_wf
def dot_S1024x200_S200x128000_S1024x128000_1_0_0_1_n_n : DotDims S1024x200 S200x128000 S1024x128000 where
  lhsContracting := [1]
  rhsContracting := [0]
  lhsNonContracting := [0]
  rhsNonContracting := [1]
  lhsBatch := []
  rhsBatch := []
  wf := dot_S1024x200_S200x128000_S1024x128000_1_0_0_1_n_n_wf

class Facts : Prop extends Facts₀ where

variable [Facts]
-- ==== Proof.Spec.lean ====
/-
  One sample of the hypernetwork convolution model, and one score, over the extended reals.

  For one sample the model takes the relation row r (200 numbers) and the subject row e (200 numbers).
  * The filters: k(j) = Σ_d r(d) · W1(j, d) + c1(j) for j < 288, read as 32 output channels of 9 taps each:
    channel o, tap f is entry 9·o + f.
  * The normalised subject row: x(i) = (e(i) - m0) · (g0 · rsqrt(v0 + ε)) + b0.
  * The valid convolution: conv(o, l) = Σ_{f < 9} k(9·o + f) · x(l + f) for l < 192.
  * The channel normalisation, flattened channel-major: entry j = 192·o + l of the flat row is
    (conv(o, l) - m1(o)) · (g1(o) · rsqrt(v1(o) + ε)) + b1(o).
  * The dense layer, its normalisation and the rectifier:
    h(d) = max(((Σ_j flat(j) · W(d, j) + c(d)) - m2(d)) · (g2(d) · rsqrt(v2(d) + ε)) + b2(d), 0).
  The score of a sample against an entity row y with bias β is logistic(Σ_d h(d) · y(d) + β).

  Sums over the extended reals are sums in a commutative monoid, so their order and grouping do not matter;
  nothing here needs a finite input.  The constant ε and the rectifier's zero are kept as the float words both
  programs spell.
-/
import Idealize.ShloMosaic.PureOps.Ideal
import Idealize.ShloMosaic.Lib.ValueIdx

noncomputable section

namespace Cert.Hyper

open Idealize.ShloMosaic

/-- The variance offset ε both programs add, as the float word they spell. -/
abbrev Eps : EReal := Ideal.ofBits .f32 0x3727C5AC#32
/-- The rectifier's zero, as the float word both programs spell. -/
abbrev Zero : EReal := Ideal.ofBits .f32 0x00000000#32

/-- A normalisation's scale: g · rsqrt(v + ε). -/
def scale (g v : EReal) : EReal := g * Ideal.rsqrt (v + Eps)

/-- The model's parameters as plain families of extended reals. -/
structure Params where
  W1 : Fin 288 → Fin 200 → EReal
  c1 : Fin 288 → EReal
  W : Fin 200 → Fin 6144 → EReal
  c : Fin 200 → EReal
  g0 : EReal
  b0 : EReal
  m0 : EReal
  v0 : EReal
  g1 : Fin 32 → EReal
  b1 : Fin 32 → EReal
  m1 : Fin 32 → EReal
  v1 : Fin 32 → EReal
  g2 : Fin 200 → EReal
  b2 : Fin 200 → EReal
  m2 : Fin 200 → EReal
  v2 : Fin 200 → EReal

/-- Channel o, tap f of the 288 filter entries: entry 9·o + f. -/
def tapIdx (o : Fin 32) (f : Fin 9) : Fin 288 := ⟨o.val * 9 + f.val, by have := o.isLt; have := f.isLt; omega⟩
/-- Position l shifted by tap f in the subject row. -/
def winIdx (l : Fin 192) (f : Fin 9) : Fin 200 := ⟨l.val + f.val, by have := l.isLt; have := f.isLt; omega⟩
/-- The channel of a flat position. -/
def chanOf (j : Fin 6144) : Fin 32 := ⟨j.val / 192, by have := j.isLt; omega⟩
/-- The place of a flat position inside its channel. -/
def posOf (j : Fin 6144) : Fin 192 := ⟨j.val % 192, by omega⟩

variable (P : Params)

/-- The filter entries of a sample. -/
def filt (r : Fin 200 → EReal) (j : Fin 288) : EReal := (∑ d : Fin 200, r d * P.W1 j d) + P.c1 j
/-- The normalised subject row. -/
def subj (e : Fin 200 → EReal) (i : Fin 200) : EReal := (e i - P.m0) * scale P.g0 P.v0 + P.b0
/-- The valid convolution of a sample: channel o, position l. -/
def conv (r e : Fin 200 → EReal) (o : Fin 32) (l : Fin 192) : EReal :=
  ∑ f : Fin 9, filt P r (tapIdx o f) * subj P e (winIdx l f)
/-- The normalised convolution, channel o, position l. -/
def convN (r e : Fin 200 → EReal) (o : Fin 32) (l : Fin 192) : EReal :=
  (conv P r e o l - P.m1 o) * scale (P.g1 o) (P.v1 o) + P.b1 o
/-- The normalised convolution flattened channel-major. -/
def flat (r e : Fin 200 → EReal) (j : Fin 6144) : EReal := convN P r e (chanOf j) (posOf j)
/-- The hidden row of a sample. -/
def hid (r e : Fin 200 → EReal) (d : Fin 200) : EReal :=
  max ((((∑ j : Fin 6144, flat P r e j * P.W d j) + P.c d) - P.m2 d) * scale (P.g2 d) (P.v2 d) + P.b2 d) Zero

/-- The score of a hidden row against an entity row with a bias. -/
def score (h y : Fin 200 → EReal) (β : EReal) : EReal := Ideal.logistic ((∑ d : Fin 200, h d * y d) + β)

end Cert.Hyper

end
-- ==== Proof.BlockParams.lean ====
/-
  The model's parameters as the first kernel's block inputs hold them: each parameter window's block is its whole array,
  so a block input read at coordinates is the parameter at those coordinates.
-/
import proofs.«158049_j16552803959284_1_alg».proof.KernelIdeal
import proofs.«158049_j16552803959284_1_alg».proof.Proof.Spec

noncomputable section
namespace Cert.Hyper
open Idealize.ShloMosaic Idealize.ShloMosaic.ValueIdx Cert.KernelIdeal

/-- The parameters read off the sixteen parameter blocks, in the kernel's operand order: the two weight matrices and
    their biases, then scale, shift, mean and variance of each of the three normalisations. -/
def blkParams (x2 : Vec Ideal S288x200 .bf16) (x3 : Vec Ideal S288 .f32) (x4 : Vec Ideal S200x6144 .bf16) (x5 : Vec Ideal S200 .f32)
    (x6 x7 x8 x9 : Vec Ideal S1 .f32) (x10 x11 x12 x13 : Vec Ideal S32 .f32) (x14 x15 x16 x17 : Vec Ideal S200 .f32) : Params where
  W1 := fun j d => x2 (ix2 j d)
  c1 := fun j => x3 (ix1 j)
  W := fun d j => x4 (ix2 d j)
  c := fun d => x5 (ix1 d)
  g0 := x6 (ix1 0)
  b0 := x7 (ix1 0)
  m0 := x8 (ix1 0)
  v0 := x9 (ix1 0)
  g1 := fun o => x10 (ix1 o)
  b1 := fun o => x11 (ix1 o)
  m1 := fun o => x12 (ix1 o)
  v1 := fun o => x13 (ix1 o)
  g2 := fun d => x14 (ix1 d)
  b2 := fun d => x15 (ix1 d)
  m2 := fun d => x16 (ix1 d)
  v2 := fun d => x17 (ix1 d)

end Cert.Hyper
end
-- ==== Proof.LibDotPlain.lean ====
/-
  The plain product of two matrices, read at one entry over the extended reals.

  A plain product of an M × K matrix by a K × N matrix has no batch axis; the left operand is contracted on its
  axis 1 and the right operand on its axis 0.  For the output entry (i, j) and the contraction position k, the left
  operand is read at (i, k) — its index keeps the output's row on axis 0 and takes the contraction position on
  axis 1 — and the right operand is read at (k, j) — its index takes the contraction position on axis 0 and keeps
  the output's column on axis 1.  The contraction has one axis, of extent K, so the sum over its index set is the sum
  over k < K.  Hence entry (i, j) of the product is Σₖ l(i, k) · r(k, j), both for the product a host program
  computes and for the product a kernel accumulates into a zero accumulator.  All of this holds for every M, K, N.
-/
import Idealize.ShloMosaic.PureOps.Ideal.Laws
import Idealize.ShloMosaic.Lib.ValueIdx

noncomputable section

namespace Cert.LibDot

open Idealize.ShloMosaic Idealize.ShloMosaic.ValueIdx

variable (M K N : Nat)

/-- Axis 0 of the left operand's index is the output's row. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- Axis 1 of the left operand's index is the contraction position. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- Axis 0 of the right operand's index is the contraction position. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Axis 1 of the right operand's index is the output's column. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- At output entry (i, j) and contraction position k the left operand is read at (i, k). -/
theorem lhsIdx_plain (i : Fin M) (j : Fin N) (k : Fin K) :
    (DotDims.plain M K N).lhsIdx (ix2 i j) ((contrEquiv1 (DotDims.plain M K N) K rfl rfl).symm k) = ix2 i k :=
  funext fun a => Fin.ext (by
    have hk := contrEquiv1_symm_val (DotDims.plain M K N) K rfl rfl k
    match a with
    | ⟨0, _⟩ => exact lhs_plain_0 M K N _ _
    | ⟨1, _⟩ => exact (lhs_plain_1 M K N _ _).trans hk)

/-- At output entry (i, j) and contraction position k the right operand is read at (k, j). -/
theorem rhsIdx_plain (i : Fin M) (j : Fin N) (k : Fin K) :
    (DotDims.plain M K N).rhsIdx (ix2 i j) ((contrEquiv1 (DotDims.plain M K N) K rfl rfl).symm k) = ix2 k j :=
  funext fun a => Fin.ext (by
    have hk := contrEquiv1_symm_val (DotDims.plain M K N) K rfl rfl k
    match a with
    | ⟨0, _⟩ => exact (rhs_plain_0 M K N _ _).trans hk
    | ⟨1, _⟩ => exact rhs_plain_1 M K N _ _)

/-- The sum over the plain product's contraction index set of the operands' products at entry (i, j) is
    Σₖ l(i, k) · r(k, j). -/
theorem sum_plain (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  refine Finset.sum_congr rfl fun k _ => ?_
  rw [lhsIdx_plain, rhsIdx_plain]

/-- Entry (i, j) of a host program's plain product: Σₖ l(i, k) · r(k, j). -/
theorem dg_plain {φ₁ φ₂ : FTy} (l : FVec Ideal ⟨2, ![M, K]⟩ φ₁) (r : FVec Ideal ⟨2, ![K, N]⟩ φ₂)
    (i : Fin M) (j : Fin N) :
    Host.dotGeneral (F := Ideal) (DotDims.plain M K N) none l r (ix2 i j)
      = ∑ k : Fin K, l (ix2 i k) * r (ix2 k j) :=
  (Ideal.dotGeneral_apply (DotDims.plain M K N) none .single l r _).trans (sum_plain M K N l r i j)

/-- Entry (i, j) of a kernel's plain product into a zero accumulator: Σₖ l(i, k) · r(k, j). -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (Ideal.matmul_constant_zero_apply (DotDims.plain M K N) none l r _).trans (sum_plain M K N l r i j)

end Cert.LibDot

end
-- ==== Proof.ConvBody.lean ====
/-
  One 256-row block of the convolution's body, read entry by entry over the extended reals.

  * The filter entries.  The block's relation rows R (256 x 200) are multiplied by the transpose of the first weight
    matrix W1 (stored 288 x 200) into a zero accumulator: entry (p, j) of the product is Σ_d R(p, d) · W1(j, d), since
    the transposed matrix reads (d, j) at W1's (j, d).  The bias c1 (288 numbers), viewed as one row and repeated over
    the 256 rows, adds c1(j).  The 256 x 288 matrix is then viewed as 256 x 32 x 9: a view keeps row-major positions,
    and (p · 32 + o) · 9 + f = p · 288 + (9 · o + f), so entry (p, o, f) of the view is entry (p, 9 · o + f) of the
    matrix — channel o, tap f.
  * The normalised subject rows.  Each one-entry parameter, viewed as 1 x 1 and repeated over the block, reads that
    parameter at every entry; so entry (p, i) is (E(p, i) - m) · (g · rsqrt(v + ε)) + b, the constant added to the
    variance being ε itself.
  * The nine taps.  Tap n takes the filter's column n — the cut [:, :, n : n + 1] of the view, whose entry (p, o, 0)
    is filter entry (p, o, n); viewing it as 256 x 32 and back as 256 x 32 x 1 changes no entry — and the subject rows
    shifted by n — the cut [:, n : n + 192], whose entry (p, l) is subject entry (p, l + n), viewed as 256 x 1 x 192 —
    and multiplies the two after repeating the column along the 192 positions and the rows along the 32 channels:
    entry (p, o, l) of the product is K(p, o, n) · X(p, l + n).  The body adds the taps 0 … 7 in order onto a zero
    array (0 + a = a) and the ninth tap's product after them; a sum over nine taps written out and grouped from the
    left is that same chain of additions, so the total is Σ_{f < 9} K(p, o, f) · X(p, l + f).
-/
import proofs.«158049_j16552803959284_1_alg».proof.Proof.Gen.KernelIdeal.Skeleton
import proofs.«158049_j16552803959284_1_alg».proof.Proof.Spec
import proofs.«158049_j16552803959284_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section
namespace Cert.Hyper
open Idealize.ShloMosaic Idealize.ShloMosaic.ValueIdx Cert.KernelIdeal Cert.KernelIdeal.Gen

/-- The block's filter entries: row p's product with the first weight matrix (stored 288 x 200, transposed in the body)
    plus the bias, viewed as 32 channels of 9 taps. -/
theorem pay2_apply (x0 : Vec Ideal S256x200 .bf16) (x2 : Vec Ideal S288x200 .bf16) (x3 : Vec Ideal S288 .f32)
    (p : Fin 256) (o : Fin 32) (f : Fin 9) :
    k0_pay2 (F := Ideal) x0 x2 x3 (ix3 p o f)
      = (∑ d : Fin 200, x0 (ix2 p d) * x2 (ix2 (tapIdx o f) d)) + x3 (ix1 (tapIdx o f)) := by
  unfold k0_pay2
  refine (shapeCast_apply _ _ (ix3 p o f) (ix2 p (tapIdx o f)) ?_).trans ?_
  · rw [Shape.rowMajor_val_two, Shape.rowMajor_val_three]
    show p.val * 288 + (o.val * 9 + f.val) = (p.val * 32 + o.val) * 9 + f.val
    omega
  · rw [addf_apply, shapeCast_self, shapeCast_self,
      show dot_S256x200_S200x288_S256x288_1_0_0_1_n_n = DotDims.plain 256 200 288 from rfl]
    refine congrArg₂ (· + ·) ?_ ?_
    · refine (Cert.LibDot.mm_plain 256 200 288 _ _ p (tapIdx o f)).trans ?_
      refine Finset.sum_congr rfl fun d _ => ?_
      rw [transpose_ix2_apply]
    · exact (broadcastTo_1b_ab_apply _ _ p (tapIdx o f)).trans (shapeCast_a_1a_apply x3 _ 0 (tapIdx o f))

/-- A one-entry parameter viewed as a 1 x 1 matrix and repeated over the block reads the parameter at every entry. -/
private theorem param_bc (w : Vec Ideal S1 .f32) (p : Fin 256) (i : Fin 200) :
    broadcastTo S256x200 (shapeCast S1x1 w shapeCasts_S1_S1x1) broadcasts_S1x1_S256x200 (ix2 p i) = w (ix1 0) := by
  refine (broadcastTo_apply _ _ (ix2 p i) (ix2 (0 : Fin 1) (0 : Fin 1)) fun ax => ?_).trans
    (shapeCast_a_1a_apply w _ 0 0)
  match ax with
  | ⟨0, _⟩ => rfl
  | ⟨1, _⟩ => rfl

/-- The block's normalised subject rows. Argument order as the payload takes them: rows, scale g, variance v, mean mu,
    shift be. -/
theorem pay3_apply (x1 : Vec Ideal S256x200 .f32) (g v mu be : Vec Ideal S1 .f32) (p : Fin 256) (i : Fin 200) :
    k0_pay3 (F := Ideal) x1 g v mu be (ix2 p i)
      = (x1 (ix2 p i) - mu (ix1 0)) * scale (g (ix1 0)) (v (ix1 0)) + be (ix1 0) := by
  unfold k0_pay3
  rw [addf_apply, mulf_apply, subf_apply, param_bc, param_bc, param_bc, shapeCast_self]
  rfl

/-- A sum over nine taps written out, grouped from the left. -/
private theorem sum_nine (F : Fin 9 → EReal) :
    ∑ f : Fin 9, F f = F 0 + F 1 + F 2 + F 3 + F 4 + F 5 + F 6 + F 7 + F 8 := by
  rw [Fin.sum_univ_castSucc, Fin.sum_univ_eight]
  rfl

/-- The filter's tap column n, cut out of the [256, 32, 9] view, reads at (p, o, 0) the filter entry (p, o, n). -/
private theorem slice_col (K : FVec Ideal S256x32x9 .f32) (n : Nat) (hK : S256x32x9.Slices ![0, 0, n] S256x32x1)
    (p : Fin 256) (o : Fin 32) (f : Fin 9) (hf : f.val = n) :
    extractStridedSlice S256x32x1 ![0, 0, n] K hK (ix3 p o (0 : Fin 1)) = K (ix3 p o f) := by
  refine extractStridedSlice_apply _ K hK (ix3 p o (0 : Fin 1)) (ix3 p o f) fun ax => ?_
  match ax with
  | ⟨0, _⟩ => exact (Nat.zero_add _).symm
  | ⟨1, _⟩ => exact (Nat.zero_add _).symm
  | ⟨2, _⟩ => exact hf

/-- The subject rows shifted by n, cut out of the [256, 200] block, read at (p, l) the row entry (p, l + n). -/
private theorem slice_row (X : FVec Ideal S256x200 .f32) (n : Nat) (hX : S256x200.Slices ![0, n] S256x192)
    (p : Fin 256) (l : Fin 192) (f : Fin 9) (hf : f.val = n) :
    extractStridedSlice S256x192 ![0, n] X hX (ix2 p l) = X (ix2 p (winIdx l f)) := by
  refine extractStridedSlice_apply _ X hX (ix2 p l) (ix2 p (winIdx l f)) fun ax => ?_
  match ax with
  | ⟨0, _⟩ => exact (Nat.zero_add _).symm
  | ⟨1, _⟩ =>
    show l.val + f.val = n + l.val
    omega

/-- A [256, 32, 1] column viewed as [256, 32], viewed back as [256, 32, 1] and spread along the positions reads at
    (p, o, l) the column's entry (p, o, 0). -/
private theorem col_bc (A : FVec Ideal S256x32x1 .f32) (p : Fin 256) (o : Fin 32) (l : Fin 192) :
    broadcastTo S256x32x192 (shapeCast S256x32x1 (shapeCast S256x32 A shapeCasts_S256x32x1_S256x32)
      shapeCasts_S256x32_S256x32x1) broadcasts_S256x32x1_S256x32x192 (ix3 p o l) = A (ix3 p o (0 : Fin 1)) := by
  refine (broadcastTo_apply _ _ (ix3 p o l) (ix3 p o (0 : Fin 1)) fun ax => ?_).trans ?_
  · match ax with
    | ⟨0, _⟩ => rfl
    | ⟨1, _⟩ => rfl
    | ⟨2, _⟩ => rfl
  refine (shapeCast_apply _ _ (ix3 p o (0 : Fin 1)) (ix2 p o) ?_).trans ?_
  · rw [Shape.rowMajor_val_two, Shape.rowMajor_val_three]
    show p.val * 32 + o.val = (p.val * 32 + o.val) * 1 + 0
    omega
  refine shapeCast_apply _ _ (ix2 p o) (ix3 p o (0 : Fin 1)) ?_
  rw [Shape.rowMajor_val_two, Shape.rowMajor_val_three]
  show (p.val * 32 + o.val) * 1 + 0 = p.val * 32 + o.val
  omega

/-- A [256, 192] block viewed as [256, 1, 192] and spread along the channels reads at (p, o, l) the block's entry
    (p, l). -/
private theorem row_bc (B : FVec Ideal S256x192 .f32) (p : Fin 256) (o : Fin 32) (l : Fin 192) :
    broadcastTo S256x32x192 (shapeCast S256x1x192 B shapeCasts_S256x192_S256x1x192)
      broadcasts_S256x1x192_S256x32x192 (ix3 p o l) = B (ix2 p l) := by
  refine (broadcastTo_apply _ _ (ix3 p o l) (ix3 p (0 : Fin 1) l) fun ax => ?_).trans ?_
  · match ax with
    | ⟨0, _⟩ => rfl
    | ⟨1, _⟩ => rfl
    | ⟨2, _⟩ => rfl
  refine shapeCast_apply _ _ (ix3 p (0 : Fin 1) l) (ix2 p l) ?_
  rw [Shape.rowMajor_val_two, Shape.rowMajor_val_three]
  show p.val * 192 + l.val = (p.val * 1 + 0) * 192 + l.val
  omega

/-- One tap's product at an entry: filter entry (p, o, f) times the subject row at l + f. -/
private theorem tap_apply (K : FVec Ideal S256x32x9 .f32) (X : FVec Ideal S256x200 .f32) (n : Nat)
    (hK : S256x32x9.Slices ![0, 0, n] S256x32x1) (hX : S256x200.Slices ![0, n] S256x192)
    (p : Fin 256) (o : Fin 32) (l : Fin 192) (f : Fin 9) (hf : f.val = n) :
    mulf
        (broadcastTo S256x32x192 (shapeCast S256x32x1 (shapeCast S256x32 (extractStridedSlice S256x32x1 ![0, 0, n] K hK)
          shapeCasts_S256x32x1_S256x32) shapeCasts_S256x32_S256x32x1) broadcasts_S256x32x1_S256x32x192)
        (broadcastTo S256x32x192 (shapeCast S256x1x192 (extractStridedSlice S256x192 ![0, n] X hX)
          shapeCasts_S256x192_S256x1x192) broadcasts_S256x1x192_S256x32x192) (ix3 p o l)
      = K (ix3 p o f) * X (ix2 p (winIdx l f)) := by
  rw [mulf_apply, col_bc, row_bc, slice_col K n hK p o f hf, slice_row X n hX p l f hf]

/-- The nine taps: the body's accumulation through tap 7 plus the last tap's product is the sum over the nine taps of
    filter entry (o, f) times the subject row at l + f. -/
theorem taps_apply (x0 : Vec Ideal S256x200 .bf16) (x2 : Vec Ideal S288x200 .bf16) (x3 : Vec Ideal S288 .f32)
    (x1 : Vec Ideal S256x200 .f32) (g v mu be : Vec Ideal S1 .f32) (p : Fin 256) (o : Fin 32) (l : Fin 192) :
    k0_pay7 (F := Ideal) (k0_pay2 x0 x2 x3) (k0_pay3 x1 g v mu be) (k0_pay4 x0 x2 x3 x1 g v mu be) (k0_pay5 x0 x2 x3)
        (k0_pay6 x1 g v mu be) (ix3 p o l)
      + k0_pay9 (F := Ideal) (k0_pay2 x0 x2 x3) (ix3 p o (0 : Fin 1)) * k0_pay8 (F := Ideal) (k0_pay3 x1 g v mu be) (ix2 p l)
      = ∑ f : Fin 9, k0_pay2 (F := Ideal) x0 x2 x3 (ix3 p o f) * k0_pay3 (F := Ideal) x1 g v mu be (ix2 p (winIdx l f)) := by
  unfold k0_pay7 k0_pay4 k0_pay5 k0_pay6 k0_pay8 k0_pay9
  generalize k0_pay2 x0 x2 x3 = K
  generalize k0_pay3 x1 g v mu be = X
  rw [sum_nine]
  dsimp only
  simp only [addf_apply]
  rw [tap_apply K X 0 _ _ p o l 0 rfl, tap_apply K X 1 _ _ p o l 1 rfl, tap_apply K X 2 _ _ p o l 2 rfl,
    tap_apply K X 3 _ _ p o l 3 rfl, tap_apply K X 4 _ _ p o l 4 rfl, tap_apply K X 5 _ _ p o l 5 rfl,
    tap_apply K X 6 _ _ p o l 6 rfl, tap_apply K X 7 _ _ p o l 7 rfl, slice_col K 8 _ p o 8 rfl,
    slice_row X 8 _ p l 8 rfl, broadcast_apply, Ideal.ofBits_def, Ideal.ofBits_zero_f32, zero_add]

end Cert.Hyper
end
-- ==== Proof.DenseBody.lean ====
/-
  The dense part of the kernel's body, read at one entry over the extended reals.

  Layout.  A vector of n numbers laid out as one row and repeated over m rows has, at (p, d), its entry d.  The same
  vector laid out as [1, n, 1] and repeated to [a, n, b] has, at (p, o, l), its entry o.  An [a, n, 1] column — whose
  passage through [a, n] and back changes no entry — repeated along the last axis has, at (p, o, l), its entry
  (p, o, 0); an [a, b] matrix laid out as [a, 1, b] and repeated along the middle axis has, at (p, o, l), its entry
  (p, l).  A [256, 32, 192] block flattened to [256, 6144] keeps row-major order, so its entry (p, j) is the block's
  entry (p, j / 192, j mod 192), because (32 p + j / 192) · 192 + j mod 192 = 6144 p + j.

  The 256-row block after the convolution.  The last tap is added: t(p, o, l) = acc(p, o, l) + k(p, o) · x(p, l).
  Each channel is normalised: n(p, o, l) = (t(p, o, l) − m1(o)) · (g1(o) · rsqrt(v1(o) + ε)) + b1(o).  The block is
  flattened channel-major and multiplied by the transpose of the 200 × 6144 weight matrix into a zero accumulator;
  narrowing the format is the identity on extended reals, so entry (p, d) of the product is
  Σ_j n(p, j / 192, j mod 192) · w(d, j).  The bias row is added, the mean row subtracted and the scale row
  g2(d) · rsqrt(v2(d) + ε) multiplied, each the same in every row p.  Last the shift row b2 is added and the maximum
  with zero taken.  Every pointwise operation at an entry is the extended reals' operation on the entries.
-/
import proofs.«158049_j16552803959284_1_alg».proof.Proof.Gen.KernelIdeal.Skeleton
import proofs.«158049_j16552803959284_1_alg».proof.Proof.Spec
import proofs.«158049_j16552803959284_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section
namespace Cert.Hyper
open Idealize.ShloMosaic Idealize.ShloMosaic.ValueIdx Cert.KernelIdeal Cert.KernelIdeal.Gen

section Layout
variable {α : Type}

/-- A vector of n entries, cast to one row and broadcast over m rows, reads its entry d at (p, d). -/
theorem row_apply {m n : ℕ} (x : (⟨1, ![n]⟩ : Shape).Idx → α) (h1 : (⟨1, ![n]⟩ : Shape).ShapeCasts ⟨2, ![1, n]⟩)
    (h2 : (⟨2, ![1, n]⟩ : Shape).Broadcasts ⟨2, ![m, n]⟩) (p : Fin m) (d : Fin n) :
    broadcastTo ⟨2, ![m, n]⟩ (shapeCast ⟨2, ![1, n]⟩ x h1) h2 (ix2 p d) = x (ix1 d) :=
  (broadcastTo_1b_ab_apply _ h2 p d).trans (shapeCast_a_1a_apply x h1 0 d)

/-- A vector of n entries, cast to [1, n, 1] and broadcast to [a, n, b], reads its entry o at (p, o, l). -/
theorem chan_apply {a n b : ℕ} (x : (⟨1, ![n]⟩ : Shape).Idx → α)
    (h1 : (⟨1, ![n]⟩ : Shape).ShapeCasts ⟨3, ![1, n, 1]⟩)
    (h2 : (⟨3, ![1, n, 1]⟩ : Shape).Broadcasts ⟨3, ![a, n, b]⟩) (p : Fin a) (o : Fin n) (l : Fin b) :
    broadcastTo ⟨3, ![a, n, b]⟩ (shapeCast ⟨3, ![1, n, 1]⟩ x h1) h2 (ix3 p o l) = x (ix1 o) := by
  refine (broadcastTo_apply _ h2 (ix3 p o l) (ix3 (0 : Fin 1) o (0 : Fin 1)) fun ax => ?_).trans ?_
  · match ax with
    | ⟨0, _⟩ => rfl
    | ⟨1, _⟩ =>
      show o.val = if n = 1 then 0 else o.val
      split
      · have := o.isLt; omega
      · rfl
    | ⟨2, _⟩ => rfl
  · refine shapeCast_apply x h1 _ _ ?_
    rw [Shape.rowMajor_val_three, Shape.rowMajor_val_one]
    show o.val = (0 * n + o.val) * 1 + 0
    omega

/-- An [a, n, 1] column, cast to [a, n] and back and broadcast to [a, n, b], reads its entry (p, o, 0) at (p, o, l). -/
theorem col_apply {a n b : ℕ} (x : (⟨3, ![a, n, 1]⟩ : Shape).Idx → α)
    (h0 : (⟨3, ![a, n, 1]⟩ : Shape).ShapeCasts ⟨2, ![a, n]⟩)
    (h1 : (⟨2, ![a, n]⟩ : Shape).ShapeCasts ⟨3, ![a, n, 1]⟩)
    (h2 : (⟨3, ![a, n, 1]⟩ : Shape).Broadcasts ⟨3, ![a, n, b]⟩) (p : Fin a) (o : Fin n) (l : Fin b) :
    broadcastTo ⟨3, ![a, n, b]⟩ (shapeCast ⟨3, ![a, n, 1]⟩ (shapeCast ⟨2, ![a, n]⟩ x h0) h1) h2 (ix3 p o l)
      = x (ix3 p o (0 : Fin 1)) := by
  rw [shapeCast_shapeCast]
  refine broadcastTo_apply _ h2 (ix3 p o l) (ix3 p o (0 : Fin 1)) fun ax => ?_
  match ax with
  | ⟨0, _⟩ =>
    show p.val = if a = 1 then 0 else p.val
    split
    · have := p.isLt; omega
    · rfl
  | ⟨1, _⟩ =>
    show o.val = if n = 1 then 0 else o.val
    split
    · have := o.isLt; omega
    · rfl
  | ⟨2, _⟩ => rfl

/-- An [a, b] matrix, cast to [a, 1, b] and broadcast to [a, n, b], reads its entry (p, l) at (p, o, l). -/
theorem mid_apply {a n b : ℕ} (x : (⟨2, ![a, b]⟩ : Shape).Idx → α)
    (h1 : (⟨2, ![a, b]⟩ : Shape).ShapeCasts ⟨3, ![a, 1, b]⟩)
    (h2 : (⟨3, ![a, 1, b]⟩ : Shape).Broadcasts ⟨3, ![a, n, b]⟩) (p : Fin a) (o : Fin n) (l : Fin b) :
    broadcastTo ⟨3, ![a, n, b]⟩ (shapeCast ⟨3, ![a, 1, b]⟩ x h1) h2 (ix3 p o l) = x (ix2 p l) := by
  refine (broadcastTo_apply _ h2 (ix3 p o l) (ix3 p (0 : Fin 1) l) fun ax => ?_).trans ?_
  · match ax with
    | ⟨0, _⟩ =>
      show p.val = if a = 1 then 0 else p.val
      split
      · have := p.isLt; omega
      · rfl
    | ⟨1, _⟩ => rfl
    | ⟨2, _⟩ =>
      show l.val = if b = 1 then 0 else l.val
      split
      · have := l.isLt; omega
      · rfl
  · refine shapeCast_apply x h1 _ _ ?_
    rw [Shape.rowMajor_val_three, Shape.rowMajor_val_two]
    show p.val * b + l.val = (p.val * 1 + 0) * b + l.val
    rw [Nat.mul_one, Nat.add_zero]

/-- A [256, 32, 192] block flattened to [256, 6144] reads, at (p, j), its entry (p, j / 192, j mod 192). -/
theorem flat_apply (x : (⟨3, ![256, 32, 192]⟩ : Shape).Idx → α)
    (h : (⟨3, ![256, 32, 192]⟩ : Shape).ShapeCasts ⟨2, ![256, 6144]⟩) (p : Fin 256) (j : Fin 6144) :
    shapeCast ⟨2, ![256, 6144]⟩ x h (ix2 p j) = x (ix3 p (chanOf j) (posOf j)) := by
  refine shapeCast_apply x h _ _ ?_
  rw [Shape.rowMajor_val_three, Shape.rowMajor_val_two]
  show (p.val * 32 + j.val / 192) * 192 + j.val % 192 = p.val * 6144 + j.val
  have := j.isLt
  omega

end Layout

/-- After the convolution: the last tap added, the channel normalisation, the channel-major flattening, the product
    with the second weight matrix (stored 200 x 6144, transposed in the body) plus its bias, minus the mean, times the
    scale.  Argument order as the payload takes them: accumulated taps, last shifted rows, last tap's filter column, then
    g1 v1 m1 b1, the weights w, the bias cb, then g2 v2 m2. -/
theorem pay10_apply (v102 : FVec Ideal S256x32x192 .f32) (v103 : FVec Ideal S256x192 .f32) (v104 : FVec Ideal S256x32x1 .f32)
    (g1 v1 m1 b1 : Vec Ideal S32 .f32) (w : Vec Ideal S200x6144 .bf16) (cb g2 v2 m2 : Vec Ideal S200 .f32)
    (p : Fin 256) (d : Fin 200) :
    k0_pay10 (F := Ideal) v102 v103 v104 g1 v1 m1 b1 w cb g2 v2 m2 (ix2 p d)
      = (((∑ j : Fin 6144,
              (((v102 (ix3 p (chanOf j) (posOf j)) + v104 (ix3 p (chanOf j) (0 : Fin 1)) * v103 (ix2 p (posOf j)))
                  - m1 (ix1 (chanOf j))) * scale (g1 (ix1 (chanOf j))) (v1 (ix1 (chanOf j))) + b1 (ix1 (chanOf j)))
                * w (ix2 d j))
            + cb (ix1 d)) - m2 (ix1 d)) * scale (g2 (ix1 d)) (v2 (ix1 d)) := by
  unfold k0_pay10
  dsimp only
  rw [mulf_apply, subf_apply, addf_apply, row_apply, row_apply, row_apply,
    show dot_S256x6144_S6144x200_S256x200_1_0_0_1_n_n = DotDims.plain 256 6144 200 from rfl,
    Cert.LibDot.mm_plain]
  refine congrArg₂ (· * ·) (congrArg₂ (· - ·) (congrArg₂ (· + ·) (Finset.sum_congr rfl fun j _ => ?_) rfl) rfl) rfl
  rw [truncf_apply, flat_apply, transpose_ix2_apply, shapeCast_self w, addf_apply, mulf_apply, subf_apply, addf_apply,
    mulf_apply, col_apply, mid_apply, chan_apply, chan_apply, chan_apply]
  rfl

/-- The shift added and the rectifier. -/
theorem pay1_apply (v151 : FVec Ideal S256x200 .f32) (b2 : Vec Ideal S200 .f32) (p : Fin 256) (d : Fin 200) :
    k0_pay1 (F := Ideal) v151 b2 (ix2 p d) = max (v151 (ix2 p d) + b2 (ix1 d)) Zero := by
  unfold k0_pay1
  rw [maximumf_apply, addf_apply, row_apply]
  rfl

end Cert.Hyper
end
-- ==== Proof.ScoreBody.lean ====
/-
  What the scoring kernel's body leaves at one entry of its output block.

  The body takes the 1024 hidden rows h (1024 x 200), a block e of 2560 entity rows (2560 x 200) and that block's
  2560 biases as one row.  It narrows the entity rows (the identity on extended reals), transposes them, multiplies the
  hidden rows by the transposed block into a zero accumulator, adds the bias row to every row and applies the logistic
  function.  Read at entry (b, n): the product is Σ_d h(b, d) · e(n, d) — the transposed block at (d, n) is the block at
  (n, d) —, the broadcast bias row is read at (0, n), so the entry is the score of hidden row b against entity row n of
  the block with that entity's bias.
-/
import proofs.«158049_j16552803959284_1_alg».proof.Proof.Gen.KernelIdeal.Skeleton
import proofs.«158049_j16552803959284_1_alg».proof.Proof.Spec
import proofs.«158049_j16552803959284_1_alg».proof.Proof.LibDotPlain
import Idealize.ShloMosaic.Lib.Pipeline.Value
import Idealize.ShloMosaic.Lib.ValueIdx
import Idealize.ShloMosaic.Lib.ValueLayout

noncomputable section
namespace Cert.Hyper
open Idealize.ShloMosaic Idealize.ShloMosaic.ValueIdx Cert.KernelIdeal Cert.KernelIdeal.Gen

/-- Entry (b, n) of the scoring body's result is the score of hidden row b against entity row n of the block. -/
theorem pay_score_apply (h : Vec Ideal S1024x200 .bf16) (e : Vec Ideal S2560x200 .f32) (β : Vec Ideal S1x2560 .f32)
    (b : Fin 1024) (n : Fin 2560) :
    k1_pay1 (F := Ideal) h e β (ix2 b n)
      = score (fun d => h (ix2 b d)) (fun d => e (ix2 n d)) (β (ix2 (0 : Fin 1) n)) := by
  unfold k1_pay1 score
  show Ideal.logistic (matmul dot_S1024x200_S200x2560_S1024x2560_1_0_0_1_n_n none
      (shapeCast S1024x200 h shapeCasts_S1024x200_S1024x200)
      (transpose S200x2560 [1, 0] (truncf .bf16 e bitsLt_bf16_f32) transposes_S2560x200_p1_0_S200x2560)
      (constant (F := Ideal) S1024x2560 .f32 0x00000000#32) (ix2 b n)
    + broadcastTo S1024x2560 (shapeCast S1x2560 β shapeCasts_S1x2560_S1x2560) broadcasts_S1x2560_S1024x2560 (ix2 b n)) = _
  rw [show dot_S1024x200_S200x2560_S1024x2560_1_0_0_1_n_n = DotDims.plain 1024 200 2560 from rfl,
    Cert.LibDot.mm_plain, broadcastTo_1b_ab_apply, shapeCast_self, shapeCast_self]
  congr 2
  refine Finset.sum_congr rfl fun d _ => ?_
  rw [transpose_ix2_apply]
  rfl

end Cert.Hyper
end
-- ==== Proof.HidBody.lean ====
/-
  What the first kernel's body leaves at one entry of its output block.

  The body's result is a composition of its stages: the filter entries and the normalised subject rows, the nine taps
  accumulated, then the channel normalisation, the flattening, the dense layer with its normalisation, the shift and the
  rectifier.  Read at entry (p, q) of the block and with each stage read at an entry, the composition is the hidden row
  of sample p at unit q: the sum over the 6144 flat positions j of the normalised convolution at channel j / 192 and
  place j mod 192 times the dense weight (q, j), and inside it the sum over the nine taps of filter entry times shifted
  subject entry.  The parameters are read off the parameter blocks, the two rows off row p of the two row blocks.
-/
import proofs.«158049_j16552803959284_1_alg».proof.Proof.Gen.KernelIdeal.Frame
import proofs.«158049_j16552803959284_1_alg».proof.Proof.BlockParams
import proofs.«158049_j16552803959284_1_alg».proof.Proof.ConvBody
import proofs.«158049_j16552803959284_1_alg».proof.Proof.DenseBody
import proofs.«158049_j16552803959284_1_alg».proof.Proof.ScoreBody

noncomputable section
namespace Cert.Hyper
open Idealize.ShloMosaic Idealize.ShloMosaic.ValueIdx Cert.KernelIdeal Cert.KernelIdeal.Gen

/-- The composed stages at entry (p, q) are the hidden row of sample p at unit q. -/
theorem pay_hid_apply (x0 : Vec Ideal S256x200 .bf16) (x1 : Vec Ideal S256x200 .f32) (x2 : Vec Ideal S288x200 .bf16) (x3 : Vec Ideal S288 .f32)
    (x4 : Vec Ideal S200x6144 .bf16) (x5 : Vec Ideal S200 .f32) (x6 x7 x8 x9 : Vec Ideal S1 .f32) (x10 x11 x12 x13 : Vec Ideal S32 .f32)
    (x14 x15 x16 x17 : Vec Ideal S200 .f32) (p : Fin 256) (q : Fin 200) :
    k0_pay1 (F := Ideal)
        (k0_pay10 (k0_pay7 (k0_pay2 x0 x2 x3) (k0_pay3 x1 x6 x9 x8 x7) (k0_pay4 x0 x2 x3 x1 x6 x9 x8 x7) (k0_pay5 x0 x2 x3)
            (k0_pay6 x1 x6 x9 x8 x7)) (k0_pay8 (k0_pay3 x1 x6 x9 x8 x7)) (k0_pay9 (k0_pay2 x0 x2 x3))
          x10 x13 x12 x11 x4 x5 x14 x17 x16) x15 (ix2 p q)
      = hid (blkParams x2 x3 x4 x5 x6 x7 x8 x9 x10 x11 x12 x13 x14 x15 x16 x17) (fun d => x0 (ix2 p d)) (fun i => x1 (ix2 p i)) q := by
  rw [pay1_apply, pay10_apply]
  unfold hid
  have hsum : (∑ j : Fin 6144,
        (((k0_pay7 (F := Ideal) (k0_pay2 x0 x2 x3) (k0_pay3 x1 x6 x9 x8 x7) (k0_pay4 x0 x2 x3 x1 x6 x9 x8 x7) (k0_pay5 x0 x2 x3)
                (k0_pay6 x1 x6 x9 x8 x7) (ix3 p (chanOf j) (posOf j))
              + k0_pay9 (F := Ideal) (k0_pay2 x0 x2 x3) (ix3 p (chanOf j) (0 : Fin 1))
                * k0_pay8 (F := Ideal) (k0_pay3 x1 x6 x9 x8 x7) (ix2 p (posOf j)))
            - x12 (ix1 (chanOf j))) * scale (x10 (ix1 (chanOf j))) (x13 (ix1 (chanOf j))) + x11 (ix1 (chanOf j)))
          * x4 (ix2 q j))
      = ∑ j : Fin 6144, flat (blkParams x2 x3 x4 x5 x6 x7 x8 x9 x10 x11 x12 x13 x14 x15 x16 x17) (fun d => x0 (ix2 p d))
          (fun i => x1 (ix2 p i)) j * (blkParams x2 x3 x4 x5 x6 x7 x8 x9 x10 x11 x12 x13 x14 x15 x16 x17).W q j := by
    refine Finset.sum_congr rfl fun j _ => ?_
    rw [taps_apply]
    unfold flat convN conv
    simp only [pay2_apply, pay3_apply]
    rfl
  rw [hsum]
  rfl

/-- Entry (p, q) of what the body leaves in the output block, from the block inputs. -/
theorem out0_18_apply (x0 : Vec Ideal S256x200 .bf16) (x1 : Vec Ideal S256x200 .f32) (x2 : Vec Ideal S288x200 .bf16) (x3 : Vec Ideal S288 .f32)
    (x4 : Vec Ideal S200x6144 .bf16) (x5 : Vec Ideal S200 .f32) (x6 x7 x8 x9 : Vec Ideal S1 .f32) (x10 x11 x12 x13 : Vec Ideal S32 .f32)
    (x14 x15 x16 x17 : Vec Ideal S200 .f32) (p : Fin 256) (q : Fin 200) :
    out0_18 (F := Ideal) x0 x1 x2 x3 x4 x5 x6 x7 x8 x9 x10 x11 x12 x13 x14 x15 x16 x17 (ix2 p q)
      = hid (blkParams x2 x3 x4 x5 x6 x7 x8 x9 x10 x11 x12 x13 x14 x15 x16 x17) (fun d => x0 (ix2 p d)) (fun i => x1 (ix2 p i)) q := by
  have hz2 : (![0, 0] : Fin 2 → Nat) = fun _ => 0 := funext fun a => by fin_cases a <;> rfl
  have hz1 : (![0] : Fin 1 → Nat) = fun _ => 0 := funext fun a => by fin_cases a; rfl
  unfold out0_18
  rw [View.canon_unit_zero hz2]
  simp only [View.ld_unit_zero (S := S256x200) hz2, View.ld_unit_zero (S := S288x200) hz2, View.ld_unit_zero (S := S200x6144) hz2,
    View.ld_unit_zero (S := S288) hz1, View.ld_unit_zero (S := S200) hz1, View.ld_unit_zero (S := S32) hz1,
    View.ld_unit_zero (S := S1) hz1]
  exact pay_hid_apply x0 x1 x2 x3 x4 x5 x6 x7 x8 x9 x10 x11 x12 x13 x14 x15 x16 x17 p q

/-- Entry (b, n) of what the scoring body leaves in its output block, from its block inputs. -/
theorem out1_3_apply (h : Vec Ideal S1024x200 .bf16) (e : Vec Ideal S2560x200 .f32) (β : Vec Ideal S1x2560 .f32)
    (b : Fin 1024) (n : Fin 2560) :
    out1_3 (F := Ideal) h e β (ix2 b n)
      = score (fun d => h (ix2 b d)) (fun d => e (ix2 n d)) (β (ix2 (0 : Fin 1) n)) := by
  have hz2 : (![0, 0] : Fin 2 → Nat) = fun _ => 0 := funext fun a => by fin_cases a <;> rfl
  unfold out1_3
  rw [View.canon_unit_zero hz2]
  simp only [View.ld_unit_zero (S := S1024x200) hz2, View.ld_unit_zero (S := S2560x200) hz2, View.ld_unit_zero (S := S1x2560) hz2]
  exact pay_score_apply h e β b n

end Cert.Hyper
end
-- ==== Proof.KernelValue.lean ====
/-
  The kernel program's result array as a function of its arguments, over the extended reals.

  The program runs two pipelined regions.  The first works on the 1024 samples in four blocks of 256 rows: at point t
  it takes rows 256·t … 256·t + 255 of the gathered relation rows and of the gathered subject rows, every parameter
  array whole, and writes back rows 256·t … 256·t + 255 of its output.  By the body's value at an entry, row p of that
  block is the hidden row of sample 256·t + p; the four blocks tile the 1024 rows, so the region's output array ends
  holding the hidden rows of all samples (`final0`).  Between the regions the host narrows that array (the identity on
  extended reals) and views the bias vector as one row.  The second region works on the 128000 entities in fifty blocks
  of 2560: at point t it takes the hidden rows whole, rows 2560·t … of the entity table and columns 2560·t … of the bias
  row, and writes back columns 2560·t … of the scores; entry (b, n) of that block is the score of hidden row b against
  entity 2560·t + n; the fifty blocks tile the columns, so the result array ends holding all scores (`final1`).  The
  host operations before the first region leave every parameter as launched (two of them narrowed, the identity), so
  the parameters the first region finds are the arguments (`P0_eq`).
-/
import proofs.«158049_j16552803959284_1_alg».proof.Proof.Gen.KernelIdeal.Frame
import proofs.«158049_j16552803959284_1_alg».proof.Proof.HidBody
import proofs.«158049_j16552803959284_1_alg».proof.Proof.KernelRun
import Idealize.ShloMosaic.Lib.Pipeline.Value
import Idealize.ShloMosaic.Lib.StableHlo.Run
import Idealize.ShloMosaic.Lib.Tactic

set_option maxRecDepth 16384
noncomputable section
namespace Cert.Hyper.KV
open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The parameters as the first region finds them. -/
def P0 (c : Dev nD) : Params :=
  blkParams (V1 m ρ c main_v15) (V1 m ρ c main_arg3) (V1 m ρ c main_v16) (V1 m ρ c main_arg5)
    (V1 m ρ c main_arg6) (V1 m ρ c main_arg7) (V1 m ρ c main_arg8) (V1 m ρ c main_arg9)
    (V1 m ρ c main_arg10) (V1 m ρ c main_arg11) (V1 m ρ c main_arg12) (V1 m ρ c main_arg13)
    (V1 m ρ c main_arg14) (V1 m ρ c main_arg15) (V1 m ρ c main_arg16) (V1 m ρ c main_arg17)

/-- The hidden row of sample r at unit q, from the arrays as the first region finds them. -/
def HidAt (c : Dev nD) (r : Fin 1024) (q : Fin 200) : EReal :=
  hid (P0 m ρ c) (fun d => (V1 m ρ c main_v14 : Vec Ideal S1024x200 .bf16) (ix2 r d))
    (fun d => (V1 m ρ c main_v13 : Vec Ideal S1024x200 .f32) (ix2 r d)) q

/-- The hidden rows as one array. -/
def Hid (c : Dev nD) : Vec Ideal S1024x200 .f32 := fun i => HidAt m ρ c ⟨(i 0).val, (i 0).isLt⟩ ⟨(i 1).val, (i 1).isLt⟩

/-- The printed index maps of the two row windows and of the output window, decided over the grid: block t along the
    rows, block 0 along the columns. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_18.index t (0 : Fin 2) = t.val ∧ win0_18.index t (1 : Fin 2) = 0 :=
  (by decide +kernel : ∀ t : Fin grid0.N, _)

/-! Each parameter window's block is its whole array, at every point. -/
theorem blk0_2 (c : Dev nD) (t : Fin cfg0.N) : iblk0 (V1 m ρ) c 2 t = V1 m ρ c main_v15 := by
  have hz' : (fun a => win0_2.index t a * main_v15.ty.shape.size a) = fun _ => 0 := funext fun a => by fin_cases a <;> rfl
  exact Memref.read_access_unit_zero (Elt Ideal) main_v15 hz' (fun a => by rw [congrFun hz' a]; simp) (V1 m ρ c main_v15)

theorem blk0_3 (c : Dev nD) (t : Fin cfg0.N) : iblk0 (V1 m ρ) c 3 t = V1 m ρ c main_arg3 := by
  have hz' : (fun a => win0_3.index t a * main_arg3.ty.shape.size a) = fun _ => 0 := funext fun a => by fin_cases a; rfl
  exact Memref.read_access_unit_zero (Elt Ideal) main_arg3 hz' (fun a => by rw [congrFun hz' a]; simp) (V1 m ρ c main_arg3)

theorem blk0_4 (c : Dev nD) (t : Fin cfg0.N) : iblk0 (V1 m ρ) c 4 t = V1 m ρ c main_v16 := by
  have hz' : (fun a => win0_4.index t a * main_v16.ty.shape.size a) = fun _ => 0 := funext fun a => by fin_cases a <;> rfl
  exact Memref.read_access_unit_zero (Elt Ideal) main_v16 hz' (fun a => by rw [congrFun hz' a]; simp) (V1 m ρ c main_v16)

theorem blk0_5 (c : Dev nD) (t : Fin cfg0.N) : iblk0 (V1 m ρ) c 5 t = V1 m ρ c main_arg5 := by
  have hz' : (fun a => win0_5.index t a * main_arg5.ty.shape.size a) = fun _ => 0 := funext fun a => by fin_cases a; rfl
  exact Memref.read_access_unit_zero (Elt Ideal) main_arg5 hz' (fun a => by rw [congrFun hz' a]; simp) (V1 m ρ c main_arg5)

theorem blk0_6 (c : Dev nD) (t : Fin cfg0.N) : iblk0 (V1 m ρ) c 6 t = V1 m ρ c main_arg6 := by
  have hz' : (fun a => win0_6.index t a * main_arg6.ty.shape.size a) = fun _ => 0 := funext fun a => by fin_cases a; rfl
  exact Memref.read_access_unit_zero (Elt Ideal) main_arg6 hz' (fun a => by rw [congrFun hz' a]; simp) (V1 m ρ c main_arg6)

theorem blk0_7 (c : Dev nD) (t : Fin cfg0.N) : iblk0 (V1 m ρ) c 7 t = V1 m ρ c main_arg7 := by
  have hz' : (fun a => win0_7.index t a * main_arg7.ty.shape.size a) = fun _ => 0 := funext fun a => by fin_cases a; rfl
  exact Memref.read_access_unit_zero (Elt Ideal) main_arg7 hz' (fun a => by rw [congrFun hz' a]; simp) (V1 m ρ c main_arg7)

theorem blk0_8 (c : Dev nD) (t : Fin cfg0.N) : iblk0 (V1 m ρ) c 8 t = V1 m ρ c main_arg8 := by
  have hz' : (fun a => win0_8.index t a * main_arg8.ty.shape.size a) = fun _ => 0 := funext fun a => by fin_cases a; rfl
  exact Memref.read_access_unit_zero (Elt Ideal) main_arg8 hz' (fun a => by rw [congrFun hz' a]; simp) (V1 m ρ c main_arg8)

theorem blk0_9 (c : Dev nD) (t : Fin cfg0.N) : iblk0 (V1 m ρ) c 9 t = V1 m ρ c main_arg9 := by
  have hz' : (fun a => win0_9.index t a * main_arg9.ty.shape.size a) = fun _ => 0 := funext fun a => by fin_cases a; rfl
  exact Memref.read_access_unit_zero (Elt Ideal) main_arg9 hz' (fun a => by rw [congrFun hz' a]; simp) (V1 m ρ c main_arg9)

theorem blk0_10 (c : Dev nD) (t : Fin cfg0.N) : iblk0 (V1 m ρ) c 10 t = V1 m ρ c main_arg10 := by
  have hz' : (fun a => win0_10.index t a * main_arg10.ty.shape.size a) = fun _ => 0 := funext fun a => by fin_cases a; rfl
  exact Memref.read_access_unit_zero (Elt Ideal) main_arg10 hz' (fun a => by rw [congrFun hz' a]; simp) (V1 m ρ c main_arg10)

theorem blk0_11 (c : Dev nD) (t : Fin cfg0.N) : iblk0 (V1 m ρ) c 11 t = V1 m ρ c main_arg11 := by
  have hz' : (fun a => win0_11.index t a * main_arg11.ty.shape.size a) = fun _ => 0 := funext fun a => by fin_cases a; rfl
  exact Memref.read_access_unit_zero (Elt Ideal) main_arg11 hz' (fun a => by rw [congrFun hz' a]; simp) (V1 m ρ c main_arg11)

theorem blk0_12 (c : Dev nD) (t : Fin cfg0.N) : iblk0 (V1 m ρ) c 12 t = V1 m ρ c main_arg12 := by
  have hz' : (fun a => win0_12.index t a * main_arg12.ty.shape.size a) = fun _ => 0 := funext fun a => by fin_cases a; rfl
  exact Memref.read_access_unit_zero (Elt Ideal) main_arg12 hz' (fun a => by rw [congrFun hz' a]; simp) (V1 m ρ c main_arg12)

theorem blk0_13 (c : Dev nD) (t : Fin cfg0.N) : iblk0 (V1 m ρ) c 13 t = V1 m ρ c main_arg13 := by
  have hz' : (fun a => win0_13.index t a * main_arg13.ty.shape.size a) = fun _ => 0 := funext fun a => by fin_cases a; rfl
  exact Memref.read_access_unit_zero (Elt Ideal) main_arg13 hz' (fun a => by rw [congrFun hz' a]; simp) (V1 m ρ c main_arg13)

theorem blk0_14 (c : Dev nD) (t : Fin cfg0.N) : iblk0 (V1 m ρ) c 14 t = V1 m ρ c main_arg14 := by
  have hz' : (fun a => win0_14.index t a * main_arg14.ty.shape.size a) = fun _ => 0 := funext fun a => by fin_cases a; rfl
  exact Memref.read_access_unit_zero (Elt Ideal) main_arg14 hz' (fun a => by rw [congrFun hz' a]; simp) (V1 m ρ c main_arg14)

theorem blk0_15 (c : Dev nD) (t : Fin cfg0.N) : iblk0 (V1 m ρ) c 15 t = V1 m ρ c main_arg15 := by
  have hz' : (fun a => win0_15.index t a * main_arg15.ty.shape.size a) = fun _ => 0 := funext fun a => by fin_cases a; rfl
  exact Memref.read_access_unit_zero (Elt Ideal) main_arg15 hz' (fun a => by rw [congrFun hz' a]; simp) (V1 m ρ c main_arg15)

theorem blk0_16 (c : Dev nD) (t : Fin cfg0.N) : iblk0 (V1 m ρ) c 16 t = V1 m ρ c main_arg16 := by
  have hz' : (fun a => win0_16.index t a * main_arg16.ty.shape.size a) = fun _ => 0 := funext fun a => by fin_cases a; rfl
  exact Memref.read_access_unit_zero (Elt Ideal) main_arg16 hz' (fun a => by rw [congrFun hz' a]; simp) (V1 m ρ c main_arg16)

theorem blk0_17 (c : Dev nD) (t : Fin cfg0.N) : iblk0 (V1 m ρ) c 17 t = V1 m ρ c main_arg17 := by
  have hz' : (fun a => win0_17.index t a * main_arg17.ty.shape.size a) = fun _ => 0 := funext fun a => by fin_cases a; rfl
  exact Memref.read_access_unit_zero (Elt Ideal) main_arg17 hz' (fun a => by rw [congrFun hz' a]; simp) (V1 m ρ c main_arg17)

/-- The relation rows' block at point t, row p, is row 256·t + p of the array. -/
theorem blk0_0 (c : Dev nD) (t : Fin cfg0.N) (p : Fin 256) (d : Fin 200) (r : Fin 1024) (hr : r.val = 256 * t.val + p.val) :
    (iblk0 (V1 m ρ) c 0 t : Vec Ideal S256x200 .bf16) (ix2 p d) = (V1 m ρ c main_v14 : Vec Ideal S1024x200 .bf16) (ix2 r d) := by
  obtain ⟨e0, e1, -⟩ := idx0 t
  unfold iblk0
  rw [View.read_apply]
  show V1 m ρ c main_v14 _ = V1 m ρ c main_v14 _
  congr 1
  funext a
  apply Fin.ext
  match a with
  | ⟨0, _⟩ => show win0_0.index t (0 : Fin 2) * 256 + 1 * p.val = r.val; rw [e0, hr]; omega
  | ⟨1, _⟩ => show win0_0.index t (1 : Fin 2) * 200 + 1 * d.val = d.val; rw [e1]; omega

/-- The subject rows' block at point t, row p, is row 256·t + p of the array. -/
theorem blk0_1 (c : Dev nD) (t : Fin cfg0.N) (p : Fin 256) (d : Fin 200) (r : Fin 1024) (hr : r.val = 256 * t.val + p.val) :
    (iblk0 (V1 m ρ) c 1 t : Vec Ideal S256x200 .f32) (ix2 p d) = (V1 m ρ c main_v13 : Vec Ideal S1024x200 .f32) (ix2 r d) := by
  obtain ⟨-, -, e0, e1, -⟩ := idx0 t
  unfold iblk0
  rw [View.read_apply]
  show V1 m ρ c main_v13 _ = V1 m ρ c main_v13 _
  congr 1
  funext a
  apply Fin.ext
  match a with
  | ⟨0, _⟩ => show win0_1.index t (0 : Fin 2) * 256 + 1 * p.val = r.val; rw [e0, hr]; omega
  | ⟨1, _⟩ => show win0_1.index t (1 : Fin 2) * 200 + 1 * d.val = d.val; rw [e1]; omega

/-- What point t writes back is block t of the hidden rows. -/
theorem flushed0_eq (c : Dev nD) (t : Fin cfg0.N) :
    (dat0 (V1 m ρ) c).flushed 18 t = ((cfg0.win 18).blk t).view.read (Elt Ideal) (Hid m ρ c) := by
  obtain ⟨-, -, -, -, e0, e1⟩ := idx0 t
  have htN : t.val < 4 := Nat.lt_of_lt_of_eq t.isLt N_0
  show (cfg0.win 18).cut (grid0.coords t) ((dat0 (V1 m ρ) c).after 18 t) = _
  rw [after0_18]
  funext j
  obtain ⟨p, q, rfl⟩ : ∃ (p : Fin 256) (q : Fin 200), j = ix2 p q := ⟨j 0, j 1, eq_ix2 j⟩
  rw [View.read_apply]
  have hp := p.isLt
  let r : Fin 1024 := ⟨256 * t.val + p.val, by omega⟩
  show out0_18 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) (iblk0 (V1 m ρ) c 15 t) (iblk0 (V1 m ρ) c 16 t) (iblk0 (V1 m ρ) c 17 t) (ix2 p q) = Hid m ρ c (((cfg0.win 18).blk t).view.emb (ix2 p q))
  refine (out0_18_apply (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) (iblk0 (V1 m ρ) c 15 t) (iblk0 (V1 m ρ) c 16 t) (iblk0 (V1 m ρ) c 17 t) p q).trans ?_
  rw [blk0_2, blk0_3, blk0_4, blk0_5, blk0_6, blk0_7, blk0_8, blk0_9, blk0_10, blk0_11, blk0_12, blk0_13, blk0_14, blk0_15, blk0_16, blk0_17]
  have h0 : (fun d => (iblk0 (V1 m ρ) c 0 t : Vec Ideal S256x200 .bf16) (ix2 p d)) = fun d => (V1 m ρ c main_v14 : Vec Ideal S1024x200 .bf16) (ix2 r d) :=
    funext fun d => blk0_0 m ρ c t p d r rfl
  have h1 : (fun d => (iblk0 (V1 m ρ) c 1 t : Vec Ideal S256x200 .f32) (ix2 p d)) = fun d => (V1 m ρ c main_v13 : Vec Ideal S1024x200 .f32) (ix2 r d) :=
    funext fun d => blk0_1 m ρ c t p d r rfl
  rw [h0, h1]
  show HidAt m ρ c r q = HidAt m ρ c ⟨_, _⟩ ⟨_, _⟩
  congr 1
  · exact Fin.ext (by show 256 * t.val + p.val = win0_18.index t (0 : Fin 2) * 256 + 1 * p.val; rw [e0]; omega)
  · exact Fin.ext (by show q.val = win0_18.index t (1 : Fin 2) * 200 + 1 * q.val; rw [e1]; omega)

/-- The four blocks of 256 rows tile the 1024 rows. -/
theorem cover0 (c : Dev nD) (i : S1024x200.Idx) :
    ∃ t : Fin cfg0.N, (cfg0.win 18).flush t = true ∧ i ∈ ((cfg0.win 18).blk t).view.set := by
  have h0 : (i 0).val < 1024 := (i 0).isLt
  have h1 : (i 1).val < 200 := (i 1).isLt
  let t : Fin cfg0.N := ⟨(i 0).val / 256, Nat.lt_of_lt_of_eq (by omega : (i 0).val / 256 < 4) N_0.symm⟩
  obtain ⟨-, -, -, -, e0, e1⟩ := idx0 t
  refine ⟨t, flush0_18 t, ?_⟩
  show i ∈ ((View.whole main_v17).slice (win0_18.rect t)).set
  rw [View.set_slice_whole, Rect.mem_set_unit]
  intro a
  match a with
  | ⟨0, _⟩ =>
    show win0_18.index t (0 : Fin 2) * 256 ≤ (i 0).val ∧ (i 0).val < win0_18.index t (0 : Fin 2) * 256 + 256
    rw [e0]; show (i 0).val / 256 * 256 ≤ (i 0).val ∧ (i 0).val < (i 0).val / 256 * 256 + 256; omega
  | ⟨1, _⟩ =>
    show win0_18.index t (1 : Fin 2) * 200 ≤ (i 1).val ∧ (i 1).val < win0_18.index t (1 : Fin 2) * 200 + 200
    rw [e1]; omega

/-- The first region's output array ends holding the hidden rows. -/
theorem final0 (c : Dev nD) : (dat0 (V1 m ρ) c).arrAt 18 cfg0.N = Hid m ρ c :=
  (dat0 (V1 m ρ) c).arrAt_eq_of_cover 18 (Hid m ρ c) (fun t _ => flushed0_eq m ρ c t) (cover0 c)

/-- The score of sample b against entity n, from the arrays as the second region finds them. -/
def OutAt (c : Dev nD) (b : Fin 1024) (n : Fin 128000) : EReal :=
  score (fun d => (V3 m ρ c main_v18 : Vec Ideal S1024x200 .bf16) (ix2 b d))
    (fun d => (V3 m ρ c main_arg0 : Vec Ideal S128000x200 .f32) (ix2 n d))
    ((V3 m ρ c main_v19 : Vec Ideal S1x128000 .f32) (ix2 (0 : Fin 1) n))

/-- The scores as one array. -/
def Out (c : Dev nD) : Vec Ideal S1024x128000 .f32 := fun i => OutAt m ρ c ⟨(i 0).val, (i 0).isLt⟩ ⟨(i 1).val, (i 1).isLt⟩

/-- The printed index maps of the second region's moving windows, decided over the grid: the entity rows' block t
    along the rows, the bias row's and the output's block t along the columns. -/
theorem idx1 : ∀ t : Fin cfg1.N, win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The hidden rows' window takes its whole array at every point. -/
theorem blk1_0 (c : Dev nD) (t : Fin cfg1.N) : iblk1 (V3 m ρ) c 0 t = V3 m ρ c main_v18 := by
  have hz' : (fun a => win1_0.index t a * main_v18.ty.shape.size a) = fun _ => 0 := funext fun a => by fin_cases a <;> rfl
  exact Memref.read_access_unit_zero (Elt Ideal) main_v18 hz' (fun a => by rw [congrFun hz' a]; simp) (V3 m ρ c main_v18)

/-- The entity rows' block at point t, row n, is row 2560·t + n of the array. -/
theorem blk1_1 (c : Dev nD) (t : Fin cfg1.N) (n : Fin 2560) (d : Fin 200) (r : Fin 128000) (hr : r.val = 2560 * t.val + n.val) :
    (iblk1 (V3 m ρ) c 1 t : Vec Ideal S2560x200 .f32) (ix2 n d) = (V3 m ρ c main_arg0 : Vec Ideal S128000x200 .f32) (ix2 r d) := by
  obtain ⟨e0, e1, -⟩ := idx1 t
  unfold iblk1
  rw [View.read_apply]
  show V3 m ρ c main_arg0 _ = V3 m ρ c main_arg0 _
  congr 1
  funext a
  apply Fin.ext
  match a with
  | ⟨0, _⟩ => show win1_1.index t (0 : Fin 2) * 2560 + 1 * n.val = r.val; rw [e0, hr]; omega
  | ⟨1, _⟩ => show win1_1.index t (1 : Fin 2) * 200 + 1 * d.val = d.val; rw [e1]; omega

/-- The bias row's block at point t, column n, is column 2560·t + n of the row. -/
theorem blk1_2 (c : Dev nD) (t : Fin cfg1.N) (n : Fin 2560) (r : Fin 128000) (hr : r.val = 2560 * t.val + n.val) :
    (iblk1 (V3 m ρ) c 2 t : Vec Ideal S1x2560 .f32) (ix2 (0 : Fin 1) n) = (V3 m ρ c main_v19 : Vec Ideal S1x128000 .f32) (ix2 (0 : Fin 1) r) := by
  obtain ⟨-, -, e0, e1, -⟩ := idx1 t
  unfold iblk1
  rw [View.read_apply]
  show V3 m ρ c main_v19 _ = V3 m ρ c main_v19 _
  congr 1
  funext a
  apply Fin.ext
  match a with
  | ⟨0, _⟩ => show win1_2.index t (0 : Fin 2) * 1 + 1 * 0 = 0; rw [e0]
  | ⟨1, _⟩ => show win1_2.index t (1 : Fin 2) * 2560 + 1 * n.val = r.val; rw [e1, hr]; omega

/-- What point t writes back is block t of the scores. -/
theorem flushed1_eq (c : Dev nD) (t : Fin cfg1.N) :
    (dat1 (V3 m ρ) c).flushed 3 t = ((cfg1.win 3).blk t).view.read (Elt Ideal) (Out m ρ c) := by
  obtain ⟨-, -, -, -, e0, e1⟩ := idx1 t
  have htN : t.val < 50 := Nat.lt_of_lt_of_eq t.isLt N_1
  show (cfg1.win 3).cut (grid1.coords t) ((dat1 (V3 m ρ) c).after 3 t) = _
  rw [after1_3]
  funext j
  obtain ⟨b, n, rfl⟩ : ∃ (b : Fin 1024) (n : Fin 2560), j = ix2 b n := ⟨j 0, j 1, eq_ix2 j⟩
  rw [View.read_apply]
  have hn := n.isLt
  let r : Fin 128000 := ⟨2560 * t.val + n.val, by omega⟩
  show out1_3 (iblk1 (V3 m ρ) c 0 t) (iblk1 (V3 m ρ) c 1 t) (iblk1 (V3 m ρ) c 2 t) (ix2 b n)
    = Out m ρ c (((cfg1.win 3).blk t).view.emb (ix2 b n))
  refine (out1_3_apply (iblk1 (V3 m ρ) c 0 t) (iblk1 (V3 m ρ) c 1 t) (iblk1 (V3 m ρ) c 2 t) b n).trans ?_
  rw [blk1_0, blk1_2 m ρ c t n r rfl]
  have h1 : (fun d => (iblk1 (V3 m ρ) c 1 t : Vec Ideal S2560x200 .f32) (ix2 n d))
      = fun d => (V3 m ρ c main_arg0 : Vec Ideal S128000x200 .f32) (ix2 r d) := funext fun d => blk1_1 m ρ c t n d r rfl
  rw [h1]
  show OutAt m ρ c b r = OutAt m ρ c ⟨_, _⟩ ⟨_, _⟩
  congr 1
  · exact Fin.ext (by show b.val = win1_3.index t (0 : Fin 2) * 1024 + 1 * b.val; rw [e0]; omega)
  · exact Fin.ext (by show 2560 * t.val + n.val = win1_3.index t (1 : Fin 2) * 2560 + 1 * n.val; rw [e1]; omega)

/-- The fifty blocks of 2560 columns tile the 128000 columns. -/
theorem cover1 (c : Dev nD) (i : S1024x128000.Idx) :
    ∃ t : Fin cfg1.N, (cfg1.win 3).flush t = true ∧ i ∈ ((cfg1.win 3).blk t).view.set := by
  have h0 : (i 0).val < 1024 := (i 0).isLt
  have h1 : (i 1).val < 128000 := (i 1).isLt
  let t : Fin cfg1.N := ⟨(i 1).val / 2560, Nat.lt_of_lt_of_eq (by omega : (i 1).val / 2560 < 50) N_1.symm⟩
  obtain ⟨-, -, -, -, e0, e1⟩ := idx1 t
  refine ⟨t, flush1_3 t, ?_⟩
  show i ∈ ((View.whole main_v20).slice (win1_3.rect t)).set
  rw [View.set_slice_whole, Rect.mem_set_unit]
  intro a
  match a with
  | ⟨0, _⟩ =>
    show win1_3.index t (0 : Fin 2) * 1024 ≤ (i 0).val ∧ (i 0).val < win1_3.index t (0 : Fin 2) * 1024 + 1024
    rw [e0]; omega
  | ⟨1, _⟩ =>
    show win1_3.index t (1 : Fin 2) * 2560 ≤ (i 1).val ∧ (i 1).val < win1_3.index t (1 : Fin 2) * 2560 + 2560
    rw [e1]; show (i 1).val / 2560 * 2560 ≤ (i 1).val ∧ (i 1).val < (i 1).val / 2560 * 2560 + 2560; omega

/-- The second region's output array ends holding the scores. -/
theorem final1 (c : Dev nD) : (dat1 (V3 m ρ) c).arrAt 3 cfg1.N = Out m ρ c :=
  (dat1 (V3 m ρ) c).arrAt_eq_of_cover 3 (Out m ρ c) (fun t _ => flushed1_eq m ρ c t) (cover1 c)

/-! ## The host operations between the launch and the regions, read -/

/-- Narrowing is the identity on extended reals: the second region's first array holds the first region's output. -/
theorem v18_eq (c : Dev nD) : (V3 m ρ c main_v18 : S1024x200.Idx → EReal) = Hid m ρ c := by
  have e : (V3 m ρ c main_v18 : S1024x200.Idx → EReal) = (W2 m ρ c (Proc.devRef .tc main_v17) : S1024x200.Idx → EReal) := by
    show StableHlo.after hostOps1 (W2 m ρ c) (Proc.devRef .tc main_v18) = _
    after_results
    rfl
  rw [e]
  exact (W2_arr m ρ c 18).trans (final0 m ρ c)

/-- The bias vector viewed as one row: entry (0, n) of the row is entry n of the argument. -/
theorem v19_apply (c : Dev nD) (n : Fin 128000) :
    (V3 m ρ c main_v19 : S1x128000.Idx → EReal) (ix2 (0 : Fin 1) n) = (m ((c : Thread nD τ).loc main_arg18) : S128000.Idx → EReal) (ix1 n) := by
  have e : (V3 m ρ c main_v19 : S1x128000.Idx → EReal)
      = shapeCast S1x128000 (W2 m ρ c (Proc.devRef .tc main_arg18) : S128000.Idx → EReal) shapeCasts_S128000_S1x128000 := by
    show StableHlo.after hostOps1 (W2 m ρ c) (Proc.devRef .tc main_v19) = _
    after_results
    rfl
  have e' : (W2 m ρ c (Proc.devRef .tc main_arg18) : S128000.Idx → EReal) = m ((c : Thread nD τ).loc main_arg18) := by
    refine (W2_of_ne m ρ c main_arg18 (by decide)).trans ?_
    show StableHlo.after hostOps0 (W0 m ρ c) (Proc.devRef .tc main_arg18) = _
    after_results
  rw [e, e', shapeCast_a_1a_apply]

/-- The entity table is as launched when the second region reads it. -/
theorem v3_arg0 (c : Dev nD) : (V3 m ρ c main_arg0 : S128000x200.Idx → EReal) = m ((c : Thread nD τ).loc main_arg0) := by
  have e : (V3 m ρ c main_arg0 : S128000x200.Idx → EReal) = (W2 m ρ c (Proc.devRef .tc main_arg0) : S128000x200.Idx → EReal) := by
    show StableHlo.after hostOps1 (W2 m ρ c) (Proc.devRef .tc main_arg0) = _
    after_results
  rw [e]
  refine (W2_of_ne m ρ c main_arg0 (by decide)).trans ?_
  show StableHlo.after hostOps0 (W0 m ρ c) (Proc.devRef .tc main_arg0) = _
  after_results

/-! ## The parameters as the first region finds them are the arguments -/

/-- The first weight matrix, narrowed (the identity on extended reals). -/
theorem v1_v15 (c : Dev nD) : (V1 m ρ c main_v15 : S288x200.Idx → EReal) = m ((c : Thread nD τ).loc main_arg2) := by
  show StableHlo.after hostOps0 (W0 m ρ c) (Proc.devRef .tc main_v15) = _
  after_results
  rfl

/-- The second weight matrix, narrowed (the identity on extended reals). -/
theorem v1_v16 (c : Dev nD) : (V1 m ρ c main_v16 : S200x6144.Idx → EReal) = m ((c : Thread nD τ).loc main_arg4) := by
  show StableHlo.after hostOps0 (W0 m ρ c) (Proc.devRef .tc main_v16) = _
  after_results
  rfl

theorem v1_arg3 (c : Dev nD) : (V1 m ρ c main_arg3 : S288.Idx → EReal) = m ((c : Thread nD τ).loc main_arg3) := by
  show StableHlo.after hostOps0 (W0 m ρ c) (Proc.devRef .tc main_arg3) = _
  after_results

theorem v1_arg5 (c : Dev nD) : (V1 m ρ c main_arg5 : S200.Idx → EReal) = m ((c : Thread nD τ).loc main_arg5) := by
  show StableHlo.after hostOps0 (W0 m ρ c) (Proc.devRef .tc main_arg5) = _
  after_results

theorem v1_arg6 (c : Dev nD) : (V1 m ρ c main_arg6 : S1.Idx → EReal) = m ((c : Thread nD τ).loc main_arg6) := by
  show StableHlo.after hostOps0 (W0 m ρ c) (Proc.devRef .tc main_arg6) = _
  after_results

theorem v1_arg7 (c : Dev nD) : (V1 m ρ c main_arg7 : S1.Idx → EReal) = m ((c : Thread nD τ).loc main_arg7) := by
  show StableHlo.after hostOps0 (W0 m ρ c) (Proc.devRef .tc main_arg7) = _
  after_results

theorem v1_arg8 (c : Dev nD) : (V1 m ρ c main_arg8 : S1.Idx → EReal) = m ((c : Thread nD τ).loc main_arg8) := by
  show StableHlo.after hostOps0 (W0 m ρ c) (Proc.devRef .tc main_arg8) = _
  after_results

theorem v1_arg9 (c : Dev nD) : (V1 m ρ c main_arg9 : S1.Idx → EReal) = m ((c : Thread nD τ).loc main_arg9) := by
  show StableHlo.after hostOps0 (W0 m ρ c) (Proc.devRef .tc main_arg9) = _
  after_results

theorem v1_arg10 (c : Dev nD) : (V1 m ρ c main_arg10 : S32.Idx → EReal) = m ((c : Thread nD τ).loc main_arg10) := by
  show StableHlo.after hostOps0 (W0 m ρ c) (Proc.devRef .tc main_arg10) = _
  after_results

theorem v1_arg11 (c : Dev nD) : (V1 m ρ c main_arg11 : S32.Idx → EReal) = m ((c : Thread nD τ).loc main_arg11) := by
  show StableHlo.after hostOps0 (W0 m ρ c) (Proc.devRef .tc main_arg11) = _
  after_results

theorem v1_arg12 (c : Dev nD) : (V1 m ρ c main_arg12 : S32.Idx → EReal) = m ((c : Thread nD τ).loc main_arg12) := by
  show StableHlo.after hostOps0 (W0 m ρ c) (Proc.devRef .tc main_arg12) = _
  after_results

theorem v1_arg13 (c : Dev nD) : (V1 m ρ c main_arg13 : S32.Idx → EReal) = m ((c : Thread nD τ).loc main_arg13) := by
  show StableHlo.after hostOps0 (W0 m ρ c) (Proc.devRef .tc main_arg13) = _
  after_results

theorem v1_arg14 (c : Dev nD) : (V1 m ρ c main_arg14 : S200.Idx → EReal) = m ((c : Thread nD τ).loc main_arg14) := by
  show StableHlo.after hostOps0 (W0 m ρ c) (Proc.devRef .tc main_arg14) = _
  after_results

theorem v1_arg15 (c : Dev nD) : (V1 m ρ c main_arg15 : S200.Idx → EReal) = m ((c : Thread nD τ).loc main_arg15) := by
  show StableHlo.after hostOps0 (W0 m ρ c) (Proc.devRef .tc main_arg15) = _
  after_results

theorem v1_arg16 (c : Dev nD) : (V1 m ρ c main_arg16 : S200.Idx → EReal) = m ((c : Thread nD τ).loc main_arg16) := by
  show StableHlo.after hostOps0 (W0 m ρ c) (Proc.devRef .tc main_arg16) = _
  after_results

theorem v1_arg17 (c : Dev nD) : (V1 m ρ c main_arg17 : S200.Idx → EReal) = m ((c : Thread nD τ).loc main_arg17) := by
  show StableHlo.after hostOps0 (W0 m ρ c) (Proc.devRef .tc main_arg17) = _
  after_results

/-- The parameters as the first region finds them are the parameters read off the arguments. -/
theorem P0_eq (c : Dev nD) : P0 m ρ c = blkParams (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  unfold P0
  rw [v1_v15, v1_v16, v1_arg3, v1_arg5, v1_arg6, v1_arg7, v1_arg8, v1_arg9, v1_arg10, v1_arg11, v1_arg12, v1_arg13, v1_arg14, v1_arg15, v1_arg16, v1_arg17]

/-- Entry (b, n) of the scores: hidden row b against entity row n of the entity table with entity n's bias. -/
theorem Out_apply (c : Dev nD) (b : Fin 1024) (n : Fin 128000) :
    Out m ρ c (ix2 b n) = score (fun d => HidAt m ρ c b d) (fun d => (m ((c : Thread nD τ).loc main_arg0) : S128000x200.Idx → EReal) (ix2 n d))
      ((m ((c : Thread nD τ).loc main_arg18) : S128000.Idx → EReal) (ix1 n)) := by
  show OutAt m ρ c b n = _
  unfold OutAt
  rw [v18_eq, v3_arg0, v19_apply]
  rfl

/-! ## The run, read -/

/-- Every weakly fair execution terminates without a fault with the result array at the scores and the arguments as
    launched. -/
theorem run : θ_run defs (onTc (τ := τ) (main (F := Ideal))) ⟨m, fun _ => 0, ρ⟩ (fun r => ∀ c : Dev nD,
      r.2.mem ((c.tc : Thread nD τ).loc main_v20) = Out m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c).1.trans ((W4_arr m ρ c 3).trans (final1 m ρ c)), (h c).2⟩)
    (Cert.KernelIdeal.RunValue.run_result m ρ)

end Cert.Hyper.KV
end
-- ==== Proof.RefParams.lean ====
/-
  The model's parameters as the plain program's arguments hold them.
-/
import proofs.«158049_j16552803959284_1_alg».proof.ReferenceIdeal
import proofs.«158049_j16552803959284_1_alg».proof.Proof.Spec

noncomputable section
namespace Cert.Hyper
open Idealize.ShloMosaic Idealize.ShloMosaic.ValueIdx Cert.ReferenceIdeal

/-- The parameters read off the plain program's sixteen parameter arguments, in its argument order: the two weight
    matrices and their biases, then scale, shift, mean and variance of each of the three normalisations. -/
def refParams (x2 : (⟨S288x200, .f32⟩ : BufTy).Contents (Elt Ideal)) (x3 : (⟨S288, .f32⟩ : BufTy).Contents (Elt Ideal))
    (x4 : (⟨S200x6144, .f32⟩ : BufTy).Contents (Elt Ideal)) (x5 : (⟨S200, .f32⟩ : BufTy).Contents (Elt Ideal))
    (x6 x7 x8 x9 : (⟨S1, .f32⟩ : BufTy).Contents (Elt Ideal)) (x10 x11 x12 x13 : (⟨S32, .f32⟩ : BufTy).Contents (Elt Ideal))
    (x14 x15 x16 x17 : (⟨S200, .f32⟩ : BufTy).Contents (Elt Ideal)) : Params where
  W1 := fun j d => x2 (ix2 j d)
  c1 := fun j => x3 (ix1 j)
  W := fun d j => x4 (ix2 d j)
  c := fun d => x5 (ix1 d)
  g0 := x6 (ix1 0)
  b0 := x7 (ix1 0)
  m0 := x8 (ix1 0)
  v0 := x9 (ix1 0)
  g1 := fun o => x10 (ix1 o)
  b1 := fun o => x11 (ix1 o)
  m1 := fun o => x12 (ix1 o)
  v1 := fun o => x13 (ix1 o)
  g2 := fun d => x14 (ix1 d)
  b2 := fun d => x15 (ix1 d)
  m2 := fun d => x16 (ix1 d)
  v2 := fun d => x17 (ix1 d)

end Cert.Hyper
end
-- ==== Proof.RefConv.lean ====
/-
  The plain program's convolution stage, read entry by entry over the extended reals.

  The stage is a product batched over the 1024 samples that contracts the nine taps: entry (b, o, l) is
  Σ_{k < 9} K(b, o, k) · G(b, l, k).

  * K is the [1024, 32, 9] view of the 1024 x 288 matrix of filter entries.  A view keeps row-major positions, and
    (b · 32 + o) · 9 + k = b · 288 + (9 · o + k) with 9 · o + k < 288, so K(b, o, k) is the matrix's entry
    (b, 9 · o + k).  That matrix is the gathered relation rows times the transposed first weight matrix, plus the bias
    repeated over the rows: entry (b, j) is Σ_d r_b(d) · W1(j, d) + c1(j), the transposed matrix reading (d, j) at
    W1's (j, d).  This is the filter entry of sample b's relation row at channel o, tap k.
  * G gathers windows of the normalised subject rows: entry (b, l, k) is row b of those rows at the column the start
    index at (l, k) names, read as a signed integer and clamped into [0, 199].  The start index is l + k as 32-bit
    words; l < 192 and k < 9, so the sum does not wrap and is below 200: it is not negative, so the program's
    "add 200 when negative" keeps it, its signed reading is l + k, and the clamp changes nothing.  So G(b, l, k) is the
    normalised subject row b at position l + k.
  * The normalised subject rows: each one-entry parameter repeated over the rows reads that parameter at every entry,
    so entry (b, i) is (e_b(i) - m) · (g · rsqrt(v + ε)) + shift, the constant added to the variance being ε itself.

  Term by term the stage's sum is therefore the convolution Σ_{k < 9} filt(9 · o + k) · subj(l + k) of sample b's
  relation row and subject row.
-/
import proofs.«158049_j16552803959284_1_alg».proof.Proof.Gen.ReferenceIdeal.Read
import proofs.«158049_j16552803959284_1_alg».proof.Proof.RefParams
import proofs.«158049_j16552803959284_1_alg».proof.Proof.LibDotPlain
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section
namespace Cert.Hyper
open Idealize.ShloMosaic Idealize.ShloMosaic.ValueIdx Cert.ReferenceIdeal Cert.ReferenceIdeal.Read

/-- The window gather read at (b, l, k): the operand's row b at the column the start index at (l, k, 0) names, read
    signed and clamped into [0, 199]. -/
private theorem gather_win {α : Type} (x : S1024x200.Idx → α) (idx : IVec S192x9x1 32) (b : Fin 1024) (l : Fin 192) (k : Fin 9) :
    Host.gather gather_S1024x200_S192x9x1_S1024x192x9_0_1_n_n_1_2_10241 x idx (ix3 b l k)
      = x (ix2 b ⟨min (idx (ix3 l k (0 : Fin 1))).toInt.toNat 199, by omega⟩) := by
  unfold Host.gather
  congr 1
  funext a
  refine Fin.ext ?_
  match a with
  | ⟨0, _⟩ =>
    show gather_S1024x200_S192x9x1_S1024x192x9_0_1_n_n_1_2_10241.start (ix3 b l k) idx 0
      + gather_S1024x200_S192x9x1_S1024x192x9_0_1_n_n_1_2_10241.batchCoord (ix3 b l k) 0
      + gather_S1024x200_S192x9x1_S1024x192x9_0_1_n_n_1_2_10241.offCoord (ix3 b l k) 0 = b.val
    rw [GatherDims.batchCoord_eq_zero _ _ _ List.not_mem_nil]
    unfold GatherDims.start GatherDims.offCoord
    rw [dif_neg (by decide), dif_pos (by decide)]
    simp only [Nat.zero_add]
    rfl
  | ⟨1, _⟩ =>
    show gather_S1024x200_S192x9x1_S1024x192x9_0_1_n_n_1_2_10241.start (ix3 b l k) idx 1
      + gather_S1024x200_S192x9x1_S1024x192x9_0_1_n_n_1_2_10241.batchCoord (ix3 b l k) 1
      + gather_S1024x200_S192x9x1_S1024x192x9_0_1_n_n_1_2_10241.offCoord (ix3 b l k) 1
      = min (idx (ix3 l k (0 : Fin 1))).toInt.toNat 199
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x200_S192x9x1_S1024x192x9_0_1_n_n_1_2_10241.startIndexMap from
      List.mem_singleton.mpr rfl)]
    have hsi : gather_S1024x200_S192x9x1_S1024x192x9_0_1_n_n_1_2_10241.siIdx (ix3 b l k)
        ⟨List.idxOf (1 : Fin 2) gather_S1024x200_S192x9x1_S1024x192x9_0_1_n_n_1_2_10241.startIndexMap,
          List.idxOf_lt_length_iff.2 (List.mem_singleton.mpr rfl)⟩ = ix3 l k (0 : Fin 1) := by
      funext c; refine Fin.ext ?_
      match c with
      | ⟨0, _⟩ => rfl
      | ⟨1, _⟩ => rfl
      | ⟨2, _⟩ => rfl
    rw [hsi]
    rfl

/-- Two small words added: position l < 192 plus tap k < 9 as 32-bit words is the word of l + k. -/
private theorem word_add (l : Fin 192) (k : Fin 9) :
    IntOp.addi (BitVec.ofNat 32 l.val) (BitVec.ofNat 32 k.val) = BitVec.ofNat 32 (l.val + k.val) := by
  show BitVec.ofNat 32 l.val + BitVec.ofNat 32 k.val = _
  apply BitVec.eq_of_toNat_eq
  simp only [BitVec.toNat_add, BitVec.toNat_ofNat]
  have := l.isLt; have := k.isLt
  omega

/-- A word below 200 is not negative: the select on "negative" keeps it. -/
private theorem sel_nonneg (n : Nat) (hn : n < 200) (A : BitVec 32) :
    Scalar.select (IntOp.cmpi .slt (BitVec.ofNat 32 n) 0#32) A (BitVec.ofNat 32 n) = BitVec.ofNat 32 n := by
  have h0 : IntOp.cmpi .slt (BitVec.ofNat 32 n) 0#32 = 0#1 := by
    refine eq_zero_of_ne_one fun h => ?_
    have := (StableHlo.Predicate.slt_iff_toNat (a := BitVec.ofNat 32 n) (b := 0#32)
      (by simp only [BitVec.toNat_ofNat]; omega) (by decide)).1 h
    simp at this
  rw [h0, select_zero]

/-- Such a word read signed and clamped into [0, 199] is its value. -/
private theorem clamp_small (n : Nat) (hn : n < 200) : min (BitVec.ofNat 32 n).toInt.toNat 199 = n := by
  rw [StableHlo.Predicate.toInt_ofNat_small n (by omega)]
  simp only [Int.toNat_natCast]
  omega

/-- Every index of a one-entry vector is its entry 0. -/
private theorem s1_eq (j : S1.Idx) : j = ix1 (0 : Fin 1) :=
  funext fun a => match a with
    | ⟨0, h0⟩ => Fin.ext (by
        have h : (j ⟨0, h0⟩).val < 1 := (j ⟨0, h0⟩).isLt
        show (j ⟨0, h0⟩).val = 0
        omega)

/-- The filter entries of the plain program: entry (b, o, k) of the [1024, 32, 9] view of the gathered relation rows
    times the transposed first weight matrix plus the bias is Σ_d r_b(d) · W1(9·o + k, d) + c1(9·o + k). -/
private theorem v12_filt (x1 : (⟨S500x200, .f32⟩ : BufTy).Contents (Elt Ideal)) (x2 : (⟨S288x200, .f32⟩ : BufTy).Contents (Elt Ideal))
    (x3 : (⟨S288, .f32⟩ : BufTy).Contents (Elt Ideal)) (x20 : (⟨S1024, .i32⟩ : BufTy).Contents (Elt Ideal))
    (b : Fin 1024) (o : Fin 32) (k : Fin 9) :
    val_main_v12 (F := Ideal) x1 x2 x3 x20 (ix3 b o k)
      = (∑ d : Fin 200, val_main_v6 (F := Ideal) x1 x20 (ix2 b d) * x2 (ix2 (tapIdx o k) d)) + x3 (ix1 (tapIdx o k)) := by
  have e12 : idx_main_v12 (ix3 b o k) = ix2 b (tapIdx o k) := by
    funext a
    have := o.isLt; have := k.isLt; have := b.isLt
    match a with
    | ⟨0, _⟩ => exact Fin.ext (by show ((b.val * 32 + o.val) * 9 + k.val) / 288 = b.val; omega)
    | ⟨1, _⟩ => exact Fin.ext (by show ((b.val * 32 + o.val) * 9 + k.val) % 288 = o.val * 9 + k.val; omega)
  rw [val_main_v12_apply, e12, val_main_v11_apply, val_main_v8_apply, val_main_v10_apply, val_main_v9_apply,
    Ideal.addf_def]
  refine congrArg₂ (· + ·) (Finset.sum_congr rfl fun d _ => ?_) ?_
  · rw [val_main_v7_apply]
    have el : lidx_main_v8 (ix2 b (tapIdx o k)) d = ix2 b d :=
      funext fun a => match a with | ⟨0, _⟩ => rfl | ⟨1, _⟩ => rfl
    have er : idx_main_v7 (ridx_main_v8 (ix2 b (tapIdx o k)) d) = ix2 (tapIdx o k) d :=
      funext fun a => match a with | ⟨0, _⟩ => rfl | ⟨1, _⟩ => rfl
    rw [el, er]
  · have e9 : idx_main_v9 (idx_main_v10 (ix2 b (tapIdx o k))) = ix1 (tapIdx o k) :=
      funext fun a => match a with | ⟨0, _⟩ => rfl
    rw [e9]

/-- The window's start index at (l, k): the word of l + k. -/
private theorem v45_word (l : Fin 192) (k : Fin 9) :
    val_main_v45 (F := Ideal) (ix3 l k (0 : Fin 1)) = BitVec.ofNat 32 (l.val + k.val) := by
  have h39 : val_main_v39 (F := Ideal) (idx_main_v45 (ix3 l k (0 : Fin 1))) = BitVec.ofNat 32 (l.val + k.val) := by
    rw [val_main_v39_apply, val_main_v37_apply, val_main_v34_apply, val_main_v33_apply, val_main_v38_apply,
      val_main_v36_apply, val_main_v35_apply]
    exact word_add l k
  rw [val_main_v45_apply, val_main_v44_apply, val_main_v41_apply, h39, val_main_v40_apply, val_main_c_3_apply]
  exact sel_nonneg _ (by have := l.isLt; have := k.isLt; omega) _

/-- The gathered windows: entry (b, l, k) is the normalised subject row b at position l + k. -/
private theorem v46_win (x0 : (⟨S128000x200, .f32⟩ : BufTy).Contents (Elt Ideal)) (x6 x7 x8 x9 : (⟨S1, .f32⟩ : BufTy).Contents (Elt Ideal))
    (x19 : (⟨S1024, .i32⟩ : BufTy).Contents (Elt Ideal)) (b : Fin 1024) (l : Fin 192) (k : Fin 9) :
    val_main_v46 (F := Ideal) x0 x6 x7 x8 x9 x19 (ix3 b l k)
      = val_main_v32 (F := Ideal) x0 x6 x7 x8 x9 x19 (ix2 b (winIdx l k)) := by
  unfold val_main_v46
  rw [gather_win]
  refine congrArg _ (congrArg (ix2 b) (Fin.ext ?_))
  show min (val_main_v45 (F := Ideal) (ix3 l k (0 : Fin 1))).toInt.toNat 199 = l.val + k.val
  rw [v45_word]
  exact clamp_small _ (by have := l.isLt; have := k.isLt; omega)

/-- The normalised subject rows of the plain program: entry (b, i) is (e_b(i) - m) · (g · rsqrt(v + ε)) + shift. -/
private theorem v32_subj (x0 : (⟨S128000x200, .f32⟩ : BufTy).Contents (Elt Ideal)) (x6 x7 x8 x9 : (⟨S1, .f32⟩ : BufTy).Contents (Elt Ideal))
    (x19 : (⟨S1024, .i32⟩ : BufTy).Contents (Elt Ideal)) (b : Fin 1024) (i : Fin 200) :
    val_main_v32 (F := Ideal) x0 x6 x7 x8 x9 x19 (ix2 b i)
      = (val_main_v19 (F := Ideal) x0 x19 (ix2 b i) - x8 (ix1 0)) * scale (x6 (ix1 0)) (x9 (ix1 0)) + x7 (ix1 0) := by
  rw [val_main_v32_apply, val_main_v29_apply, val_main_v22_apply, val_main_v21_apply, val_main_v20_apply,
    val_main_v28_apply, val_main_v27_apply, val_main_v26_apply, val_main_v25_apply, val_main_v24_apply,
    val_main_v23_apply, val_main_cst_apply, val_main_v31_apply, val_main_v30_apply,
    s1_eq (idx_main_v20 _), s1_eq (idx_main_v27 _), s1_eq (idx_main_v30 _)]
  rfl

/-- The plain program's convolution stage, entry (b, o, l): the convolution of sample b's relation row (row b of the
    gathered relation rows) and subject row (row b of the gathered entity rows). -/
theorem ref_conv_apply (x0 : (⟨S128000x200, .f32⟩ : BufTy).Contents (Elt Ideal)) (x1 : (⟨S500x200, .f32⟩ : BufTy).Contents (Elt Ideal))
    (x2 : (⟨S288x200, .f32⟩ : BufTy).Contents (Elt Ideal)) (x3 : (⟨S288, .f32⟩ : BufTy).Contents (Elt Ideal))
    (x4 : (⟨S200x6144, .f32⟩ : BufTy).Contents (Elt Ideal)) (x5 : (⟨S200, .f32⟩ : BufTy).Contents (Elt Ideal))
    (x6 x7 x8 x9 : (⟨S1, .f32⟩ : BufTy).Contents (Elt Ideal)) (x10 x11 x12 x13 : (⟨S32, .f32⟩ : BufTy).Contents (Elt Ideal))
    (x14 x15 x16 x17 : (⟨S200, .f32⟩ : BufTy).Contents (Elt Ideal)) (x19 x20 : (⟨S1024, .i32⟩ : BufTy).Contents (Elt Ideal))
    (b : Fin 1024) (o : Fin 32) (l : Fin 192) :
    val_main_v47 (F := Ideal) x0 x1 x2 x3 x6 x7 x8 x9 x19 x20 (ix3 b o l)
      = conv (refParams x2 x3 x4 x5 x6 x7 x8 x9 x10 x11 x12 x13 x14 x15 x16 x17)
          (fun d => val_main_v6 (F := Ideal) x1 x20 (ix2 b d)) (fun i => val_main_v19 (F := Ideal) x0 x19 (ix2 b i)) o l := by
  rw [val_main_v47_apply]
  unfold conv
  refine Finset.sum_congr rfl fun k _ => ?_
  have el : lidx_main_v47 (ix3 b o l) k = ix3 b o k :=
    funext fun a => match a with | ⟨0, _⟩ => rfl | ⟨1, _⟩ => rfl | ⟨2, _⟩ => rfl
  have er : ridx_main_v47 (ix3 b o l) k = ix3 b l k :=
    funext fun a => match a with | ⟨0, _⟩ => rfl | ⟨1, _⟩ => rfl | ⟨2, _⟩ => rfl
  rw [el, er, v12_filt, v46_win, v32_subj]
  rfl

end Cert.Hyper
end
-- ==== Proof.RefHid.lean ====
/-
  The plain program's hidden rows and scores, read at one entry over the extended reals.

  The hidden row.  The plain program normalises its convolution stage channel by channel: entry (b, o, l) becomes
  (conv(b, o, l) − m1(o)) · (g1(o) · rsqrt(v1(o) + ε)) + b1(o), each of the four 32-entry parameters read at the
  entry's channel o whatever b and l.  It views the [1024, 32, 192] result as [1024, 6144] in row-major order, so
  entry (b, j) of the view is entry (b, j / 192, j mod 192) of the block, because for j < 6144
  (6144 b + j) / 6144 = b, (6144 b + j) / 192 mod 32 = j / 192 and (6144 b + j) mod 192 = j mod 192.  It multiplies the
  view by the transposed dense weights: entry (b, q) of the product is Σ_j flat(b, j) · W(q, j).  It adds the bias c(q),
  subtracts the mean m2(q), multiplies by g2(q) · rsqrt(v2(q) + ε) and adds b2(q) — each 200-entry parameter read at q
  whatever b — and takes the maximum with zero.  That is the hidden row of sample b at q.

  The score.  Entry (b, n) of the result is 1 / (1 + exp(−z)) with z = Σ_d h(b, d) · E(n, d) + β(n): the product of
  the hidden rows with the transposed entity table, plus entity n's bias.  The float word 0x3F800000 is 1, and
  1 / (1 + exp(−z)) is the logistic function of z by definition.
-/
import proofs.«158049_j16552803959284_1_alg».proof.Proof.Gen.ReferenceIdeal.Read
import proofs.«158049_j16552803959284_1_alg».proof.Proof.RefParams
import proofs.«158049_j16552803959284_1_alg».proof.Proof.RefConv
import proofs.«158049_j16552803959284_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section
namespace Cert.Hyper
open Idealize.ShloMosaic Idealize.ShloMosaic.ValueIdx Cert.ReferenceIdeal Cert.ReferenceIdeal.Read

/-! ## The index maps at explicit coordinates -/

/-- Row b, flat position k of the flattened block is entry (b, k / 192, k mod 192) of the block. -/
theorem idx61_lidx63 (b : Fin 1024) (q : Fin 200) (k : Fin 6144) :
    idx_main_v61 (lidx_main_v63 (ix2 b q) k) = ix3 b (chanOf k) (posOf k) := by
  funext a
  match a with
  | ⟨0, _⟩ => exact Fin.ext (by show (b.val * 6144 + k.val) / 6144 = b.val; have := k.isLt; omega)
  | ⟨1, _⟩ => exact Fin.ext (by show (b.val * 6144 + k.val) / 192 % 32 = k.val / 192; have := k.isLt; omega)
  | ⟨2, _⟩ => exact Fin.ext (by show (b.val * 6144 + k.val) % 192 = k.val % 192; omega)

/-- Entry (k, q) of the transposed dense weights is entry (q, k) of the weights. -/
theorem idx62_ridx63 (b : Fin 1024) (q : Fin 200) (k : Fin 6144) :
    idx_main_v62 (ridx_main_v63 (ix2 b q) k) = ix2 q k :=
  funext fun a => match a with | ⟨0, _⟩ => rfl | ⟨1, _⟩ => rfl

/-- The left operand of the score product at output (b, n), position k: hidden entry (b, k). -/
theorem lidx82_eq (b : Fin 1024) (n : Fin 128000) (k : Fin 200) : lidx_main_v82 (ix2 b n) k = ix2 b k :=
  funext fun a => match a with | ⟨0, _⟩ => rfl | ⟨1, _⟩ => rfl

/-- Entry (k, n) of the transposed entity table is entry (n, k) of the table. -/
theorem idx81_ridx82 (b : Fin 1024) (n : Fin 128000) (k : Fin 200) :
    idx_main_v81 (ridx_main_v82 (ix2 b n) k) = ix2 n k :=
  funext fun a => match a with | ⟨0, _⟩ => rfl | ⟨1, _⟩ => rfl

/-! ## The normalised convolution -/

/-- The plain program's normalised convolution, entry (b, o, l). -/
theorem ref_convN_apply (x0 : (⟨S128000x200, .f32⟩ : BufTy).Contents (Elt Ideal)) (x1 : (⟨S500x200, .f32⟩ : BufTy).Contents (Elt Ideal))
    (x2 : (⟨S288x200, .f32⟩ : BufTy).Contents (Elt Ideal)) (x3 : (⟨S288, .f32⟩ : BufTy).Contents (Elt Ideal))
    (x4 : (⟨S200x6144, .f32⟩ : BufTy).Contents (Elt Ideal)) (x5 : (⟨S200, .f32⟩ : BufTy).Contents (Elt Ideal))
    (x6 x7 x8 x9 : (⟨S1, .f32⟩ : BufTy).Contents (Elt Ideal)) (x10 x11 x12 x13 : (⟨S32, .f32⟩ : BufTy).Contents (Elt Ideal))
    (x14 x15 x16 x17 : (⟨S200, .f32⟩ : BufTy).Contents (Elt Ideal)) (x19 x20 : (⟨S1024, .i32⟩ : BufTy).Contents (Elt Ideal))
    (b : Fin 1024) (o : Fin 32) (l : Fin 192) :
    val_main_v60 (F := Ideal) x0 x1 x2 x3 x6 x7 x8 x9 x10 x11 x12 x13 x19 x20 (ix3 b o l)
      = convN (refParams x2 x3 x4 x5 x6 x7 x8 x9 x10 x11 x12 x13 x14 x15 x16 x17)
          (fun d => val_main_v6 (F := Ideal) x1 x20 (ix2 b d)) (fun i => val_main_v19 (F := Ideal) x0 x19 (ix2 b i)) o l := by
  have e48 : idx_main_v48 (idx_main_v49 (ix3 b o l)) = ix1 o := funext fun a => match a with | ⟨0, _⟩ => rfl
  have e55 : idx_main_v55 (idx_main_v56 (ix3 b o l)) = ix1 o := funext fun a => match a with | ⟨0, _⟩ => rfl
  have e58 : idx_main_v58 (idx_main_v59 (ix3 b o l)) = ix1 o := funext fun a => match a with | ⟨0, _⟩ => rfl
  rw [val_main_v60_apply, val_main_v57_apply, val_main_v50_apply, val_main_v49_apply, val_main_v48_apply, e48,
    val_main_v56_apply, val_main_v55_apply, e55, val_main_v54_apply, val_main_v53_apply, val_main_v52_apply,
    val_main_v51_apply, val_main_cst_5_apply, val_main_v59_apply, val_main_v58_apply, e58,
    ref_conv_apply x0 x1 x2 x3 x4 x5 x6 x7 x8 x9 x10 x11 x12 x13 x14 x15 x16 x17 x19 x20 b o l]
  rfl

/-- The plain program's hidden rows, entry (b, q). -/
theorem ref_hid_apply (x0 : (⟨S128000x200, .f32⟩ : BufTy).Contents (Elt Ideal)) (x1 : (⟨S500x200, .f32⟩ : BufTy).Contents (Elt Ideal))
    (x2 : (⟨S288x200, .f32⟩ : BufTy).Contents (Elt Ideal)) (x3 : (⟨S288, .f32⟩ : BufTy).Contents (Elt Ideal))
    (x4 : (⟨S200x6144, .f32⟩ : BufTy).Contents (Elt Ideal)) (x5 : (⟨S200, .f32⟩ : BufTy).Contents (Elt Ideal))
    (x6 x7 x8 x9 : (⟨S1, .f32⟩ : BufTy).Contents (Elt Ideal)) (x10 x11 x12 x13 : (⟨S32, .f32⟩ : BufTy).Contents (Elt Ideal))
    (x14 x15 x16 x17 : (⟨S200, .f32⟩ : BufTy).Contents (Elt Ideal)) (x19 x20 : (⟨S1024, .i32⟩ : BufTy).Contents (Elt Ideal))
    (b : Fin 1024) (q : Fin 200) :
    val_main_v80 (F := Ideal) x0 x1 x2 x3 x4 x5 x6 x7 x8 x9 x10 x11 x12 x13 x14 x15 x16 x17 x19 x20 (ix2 b q)
      = hid (refParams x2 x3 x4 x5 x6 x7 x8 x9 x10 x11 x12 x13 x14 x15 x16 x17)
          (fun d => val_main_v6 (F := Ideal) x1 x20 (ix2 b d)) (fun i => val_main_v19 (F := Ideal) x0 x19 (ix2 b i)) q := by
  have e65 : idx_main_v64 (idx_main_v65 (ix2 b q)) = ix1 q := funext fun a => match a with | ⟨0, _⟩ => rfl
  have e68 : idx_main_v67 (idx_main_v68 (ix2 b q)) = ix1 q := funext fun a => match a with | ⟨0, _⟩ => rfl
  have e75 : idx_main_v74 (idx_main_v75 (ix2 b q)) = ix1 q := funext fun a => match a with | ⟨0, _⟩ => rfl
  have e78 : idx_main_v77 (idx_main_v78 (ix2 b q)) = ix1 q := funext fun a => match a with | ⟨0, _⟩ => rfl
  have hs : ∀ k : Fin 6144,
      val_main_v61 (F := Ideal) x0 x1 x2 x3 x6 x7 x8 x9 x10 x11 x12 x13 x19 x20 (lidx_main_v63 (ix2 b q) k)
          * val_main_v62 (F := Ideal) x4 (ridx_main_v63 (ix2 b q) k)
        = flat (refParams x2 x3 x4 x5 x6 x7 x8 x9 x10 x11 x12 x13 x14 x15 x16 x17)
            (fun d => val_main_v6 (F := Ideal) x1 x20 (ix2 b d)) (fun i => val_main_v19 (F := Ideal) x0 x19 (ix2 b i)) k
          * (refParams x2 x3 x4 x5 x6 x7 x8 x9 x10 x11 x12 x13 x14 x15 x16 x17).W q k := by
    intro k
    rw [val_main_v61_apply, idx61_lidx63, ref_convN_apply x0 x1 x2 x3 x4 x5 x6 x7 x8 x9 x10 x11 x12 x13 x14 x15 x16 x17 x19 x20,
      val_main_v62_apply, idx62_ridx63]
    rfl
  rw [val_main_v80_apply, val_main_call0_v0_apply, val_main_call0_cst_apply, val_main_v79_apply, val_main_v78_apply,
    val_main_v77_apply, e78, val_main_v76_apply, val_main_v75_apply, val_main_v74_apply, e75, val_main_v73_apply,
    val_main_v72_apply, val_main_v71_apply, val_main_v70_apply, val_main_cst_6_apply, val_main_v69_apply,
    val_main_v68_apply, val_main_v67_apply, e68, val_main_v66_apply, val_main_v65_apply, val_main_v64_apply, e65,
    val_main_v63_apply, Finset.sum_congr rfl fun k _ => hs k]
  rfl

/-- The plain program's result, entry (b, n): the score of hidden row b against entity row n with entity n's bias. -/
theorem ref_score_apply (x0 : (⟨S128000x200, .f32⟩ : BufTy).Contents (Elt Ideal)) (x1 : (⟨S500x200, .f32⟩ : BufTy).Contents (Elt Ideal))
    (x2 : (⟨S288x200, .f32⟩ : BufTy).Contents (Elt Ideal)) (x3 : (⟨S288, .f32⟩ : BufTy).Contents (Elt Ideal))
    (x4 : (⟨S200x6144, .f32⟩ : BufTy).Contents (Elt Ideal)) (x5 : (⟨S200, .f32⟩ : BufTy).Contents (Elt Ideal))
    (x6 x7 x8 x9 : (⟨S1, .f32⟩ : BufTy).Contents (Elt Ideal)) (x10 x11 x12 x13 : (⟨S32, .f32⟩ : BufTy).Contents (Elt Ideal))
    (x14 x15 x16 x17 : (⟨S200, .f32⟩ : BufTy).Contents (Elt Ideal)) (x18 : (⟨S128000, .f32⟩ : BufTy).Contents (Elt Ideal))
    (x19 x20 : (⟨S1024, .i32⟩ : BufTy).Contents (Elt Ideal)) (b : Fin 1024) (n : Fin 128000) :
    val_main_v91 (F := Ideal) x0 x1 x2 x3 x4 x5 x6 x7 x8 x9 x10 x11 x12 x13 x14 x15 x16 x17 x18 x19 x20 (ix2 b n)
      = score (fun d => val_main_v80 (F := Ideal) x0 x1 x2 x3 x4 x5 x6 x7 x8 x9 x10 x11 x12 x13 x14 x15 x16 x17 x19 x20 (ix2 b d))
          (fun d => x0 (ix2 n d)) (x18 (ix1 n)) := by
  have e84 : idx_main_v83 (idx_main_v84 (ix2 b n)) = ix1 n := funext fun a => match a with | ⟨0, _⟩ => rfl
  have h1 : FloatOps.ofBits (F := Ideal) .f32 0x3F800000#32 = (1 : EReal) := IdealRules.sign_bit.ideal_onePat .f32
  rw [val_main_v91_apply, val_main_v90_apply, val_main_cst_8_apply, val_main_v89_apply, val_main_v88_apply,
    val_main_cst_7_apply, val_main_v87_apply, val_main_v86_apply, val_main_v85_apply, val_main_v84_apply,
    val_main_v83_apply, e84, val_main_v82_apply, h1]
  generalize val_main_v80 (F := Ideal) x0 x1 x2 x3 x4 x5 x6 x7 x8 x9 x10 x11 x12 x13 x14 x15 x16 x17 x19 x20 = H
  show Ideal.logistic ((∑ k : Fin 200, H (lidx_main_v82 (ix2 b n) k) * val_main_v81 (F := Ideal) x0 (ridx_main_v82 (ix2 b n) k))
        + x18 (ix1 n))
      = Ideal.logistic ((∑ d : Fin 200, H (ix2 b d) * x0 (ix2 n d)) + x18 (ix1 n))
  refine congrArg Ideal.logistic (congrArg₂ (· + ·) (Finset.sum_congr rfl fun k _ => ?_) rfl)
  rw [lidx82_eq, val_main_v81_apply, idx81_ridx82]

end Cert.Hyper
end
-- ==== Proof.Bridge.lean ====
/-
  The kernel program's scores and the plain program's result are one function of the arguments.

  Entry (b, n) of either is the score of a hidden row against entity row n with entity n's bias; the hidden row of
  sample b is, in either, the model's hidden row for the parameters read off the arguments, sample b's row of the
  gathered relation rows and sample b's row of the gathered subject rows.  Both programs gather those rows with the same
  host operations (the index wrapped if negative, then a gather of whole rows), so the gathered arrays are the same terms
  of the arguments and are never opened.
-/
import proofs.«158049_j16552803959284_1_alg».proof.Proof.KernelValue
import proofs.«158049_j16552803959284_1_alg».proof.Proof.RefHid

set_option maxRecDepth 16384
noncomputable section
namespace Cert.Hyper.Bridge
open Idealize.ShloMosaic Idealize.ShloMosaic.TcCoe Idealize.SL.Sem Idealize.ShloMosaic.ValueIdx
open Cert.KernelIdeal Cert.KernelIdeal.Gen Cert.Hyper.KV

variable (m : (ℓ : Loc nD τ sig) → Buf (Elt Ideal) ℓ) (ρ : Dev nD → PrngReg)

/-- The relation rows the first region finds are the plain program's gathered relation rows. -/
theorem rel_rows (c : Dev nD) : (V1 m ρ c main_v14 : S1024x200.Idx → EReal)
    = Cert.ReferenceIdeal.Read.val_main_v6 (F := Ideal) (m ((c : Thread nD τ).loc main_arg1)) (m ((c : Thread nD τ).loc main_arg20)) := by
  show StableHlo.after hostOps0 (W0 m ρ c) (Proc.devRef .tc main_v14) = _
  after_results
  rfl

/-- The subject rows the first region finds are the plain program's gathered subject rows. -/
theorem sub_rows (c : Dev nD) : (V1 m ρ c main_v13 : S1024x200.Idx → EReal)
    = Cert.ReferenceIdeal.Read.val_main_v19 (F := Ideal) (m ((c : Thread nD τ).loc main_arg0)) (m ((c : Thread nD τ).loc main_arg19)) := by
  show StableHlo.after hostOps0 (W0 m ρ c) (Proc.devRef .tc main_v13) = _
  after_results
  rfl

/-- The hidden row of sample b at unit q is the plain program's hidden stage at (b, q). -/
theorem hid_eq (c : Dev nD) (b : Fin 1024) (q : Fin 200) :
    HidAt m ρ c b q = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg19)) (m ((c : Thread nD τ).loc main_arg20)) (ix2 b q) := by
  rw [ref_hid_apply]
  unfold HidAt
  rw [P0_eq, rel_rows, sub_rows]
  rfl

/-- The kernel program's scores are the plain program's result stage. -/
theorem result_eq (c : Dev nD) :
    Out m ρ c = Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  funext i
  obtain ⟨b, n, rfl⟩ : ∃ (b : Fin 1024) (n : Fin 128000), i = ix2 b n := ⟨i 0, i 1, eq_ix2 i⟩
  have hfun : (fun d => HidAt m ρ c b d)
      = fun d => Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg19)) (m ((c : Thread nD τ).loc main_arg20)) (ix2 b d) :=
    funext fun d => hid_eq m ρ c b d
  rw [Out_apply, ref_score_apply, hfun]

end Cert.Hyper.Bridge
end
-- ==== Proof.lean ====
/-
  The certificate: a hypernetwork convolution model scored against an entity table, as a two-region kernel program
  against a plain array program.

  Both programs gather a relation row and a subject row per sample, build nine-tap filters for 32 channels from the
  relation row, normalise the subject row, convolve, normalise each channel, flatten, apply a dense layer with its
  normalisation and a rectifier, and score the hidden row against every entity row with a bias and the logistic
  function.  The kernel program narrows some operands to a shorter float format (the identity on extended reals),
  accumulates the nine taps one by one from zero where the plain program contracts them in one product (sums in a
  commutative monoid), works on blocks of rows and of entities where the plain program works on whole arrays, and
  applies the logistic function as one operation where the plain program spells 1 / (1 + exp (−x)) (its definition on
  extended reals).  So both results are one function of the arguments, entry by entry; no finiteness is needed.
  The three frames are the generated frames of the two kernel programs and the plain program's run with its result
  dropped; the idealization rewrote no operation, so there is nothing to preserve.
-/
import proofs.«158049_j16552803959284_1_alg».proof.Defs
import proofs.«158049_j16552803959284_1_alg».proof.Proof.Gen.Kernel
import proofs.«158049_j16552803959284_1_alg».proof.Proof.Gen.Kernel.Frame
import proofs.«158049_j16552803959284_1_alg».proof.Proof.Gen.KernelIdeal
import proofs.«158049_j16552803959284_1_alg».proof.Proof.Gen.KernelIdeal.Frame
import proofs.«158049_j16552803959284_1_alg».proof.Proof.Gen.ReferenceIdeal
import proofs.«158049_j16552803959284_1_alg».proof.Proof.Gen.ReferenceIdeal.Run
import proofs.«158049_j16552803959284_1_alg».proof.Proof.Gen.ReferenceIdeal.Read
import proofs.«158049_j16552803959284_1_alg».proof.Proof.Gen.Pre_finite_inputs
import proofs.«158049_j16552803959284_1_alg».proof.Proof.KernelValue
import proofs.«158049_j16552803959284_1_alg».proof.Proof.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the arguments both programs end with the scores: the kernel program's result array by
    its run read block by block, the plain program's by its run read stage by stage, and the two are one function. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Hyper.KV.Out m ρ c, Cert.Hyper.KV.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20⟩ := hagree c
  rw [Cert.ReferenceIdeal.Read.val_main_v91_eq, h0, h1, h2, h3, h4, h5, h6, h7, h8, h9, h10, h11, h12, h13, h14, h15, h16, h17, h18, h19, h20]
  exact (Cert.Hyper.Bridge.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
